-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x128x256 .f32) (main_arg1 : IVec S8x128 1) (main_arg2 : FVec F S256x256 .f32) (main_arg3 : FVec F S768x256 .f32) (main_arg4 : FVec F S256 .f32) (main_arg5 : FVec F S256x1 .f32) (main_arg6 : FVec F S1 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S8x128x128x1 : Shape := ⟨4, ![8, 128, 128, 1]⟩
abbrev S1x128x256 : Shape := ⟨3, ![1, 128, 256]⟩
abbrev S1x32x256 : Shape := ⟨3, ![1, 32, 256]⟩
abbrev S1x128x32x1 : Shape := ⟨4, ![1, 128, 32, 1]⟩
abbrev S128x256 : Shape := ⟨2, ![128, 256]⟩
abbrev S32x256 : Shape := ⟨2, ![32, 256]⟩
abbrev S1x1x256 : Shape := ⟨3, ![1, 1, 256]⟩
abbrev S128x1x256 : Shape := ⟨3, ![128, 1, 256]⟩
abbrev S128x32x256 : Shape := ⟨3, ![128, 32, 256]⟩
abbrev S128x32 : Shape := ⟨2, ![128, 32]⟩
abbrev S128x32x1 : Shape := ⟨3, ![128, 32, 1]⟩
abbrev S1x1x1 : Shape := ⟨3, ![1, 1, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x128x256, .f32⟩
  | .hbm, ⟨1, _⟩ => ⟨S8x128, .i1⟩
  | .hbm, ⟨2, _⟩ => ⟨S256x256, .f32⟩
  | .hbm, ⟨3, _⟩ => ⟨S768x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S256x256, .bf16⟩
  | .hbm, ⟨12, _⟩ => ⟨S256x256, .bf16⟩
  | .hbm, ⟨13, _⟩ => ⟨S256x256, .bf16⟩
  | .hbm, ⟨14, _⟩ => ⟨S1x256, .f32⟩
  | .hbm, ⟨15, _⟩ => ⟨S1x256, .f32⟩
  | .hbm, ⟨16, _⟩ => ⟨S1x1, .f32⟩
  | .hbm, ⟨17, _⟩ => ⟨S8x128x128x1, .f32⟩
  | .local _ .vmem, ⟨0, _⟩ => ⟨S1x128x256, .f32⟩
  | .local _ .vmem, ⟨1, _⟩ => ⟨S1x128x256, .f32⟩
  | .local _ .vmem, ⟨2, _⟩ => ⟨S1x32x256, .f32⟩
  | .local _ .vmem, ⟨3, _⟩ => ⟨S1x32x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S1x128x32x1, .f32⟩
  | .local _ .vmem, ⟨12, _⟩ => ⟨S1x128x32x1, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S768x256_S256x256_0_0 : S768x256.Slices ![0, 0] S256x256
  slices_S768x256_S256x256_256_0 : S768x256.Slices ![256, 0] S256x256
  slices_S768x256_S256x256_512_0 : S768x256.Slices ![512, 0] S256x256
  bitsLt_bf16_f32 : FTy.bits .bf16 < FTy.bits .f32
  shapeCasts_S256_S1x256 : S256.ShapeCasts S1x256
  shapeCasts_S256x1_S1x256 : S256x1.ShapeCasts S1x256
  shapeCasts_S1_S1x1 : S1.ShapeCasts S1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  reduces_S128x256_S256 : S128x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  shapeCasts_S128x256_S128x1x256 : S128x256.ShapeCasts S128x1x256
  broadcasts_S1x1x256_S128x1x256 : S1x1x256.Broadcasts S128x1x256
  shapeCasts_S32x256_S1x32x256 : S32x256.ShapeCasts S1x32x256
  broadcasts_S128x1x256_S128x32x256 : S128x1x256.Broadcasts S128x32x256
  broadcasts_S1x32x256_S128x32x256 : S1x32x256.Broadcasts S128x32x256
  broadcasts_S1x1x256_S128x32x256 : S1x1x256.Broadcasts S128x32x256
  reduces_S128x32x256_S128x32 : S128x32x256.Reduces [2] S128x32
  shapeCasts_S128x32_S128x32x1 : S128x32.ShapeCasts S128x32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S128x32x1 : S1x1x1.Broadcasts S128x32x1
  inb_S1x128x32x1_S1x128x32x1_0_0_0_0 : ∀ a, (![0, 0, 0, 0] : Fin 4 → Nat) a + S1x128x32x1.size a ≤ S1x128x32x1.size a
  h_S1x128x32x1 : 0 < S1x128x32x1.numel
  shapeCasts_S1x128x32x1_S128x32x1 : S1x128x32x1.ShapeCasts S128x32x1
  shapeCasts_S128x32x1_S1x128x32x1 : S128x32x1.ShapeCasts S1x128x32x1
  dot_S1x256_S256x256_S1x256_1_0_0_1_n_n_wf : DotDims.WF S1x256 S256x256 S1x256 [1] [0] [0] [1] [] []
  dot_S128x256_S256x256_S128x256_1_0_0_1_n_n_wf : DotDims.WF S128x256 S256x256 S128x256 [1] [0] [0] [1] [] []
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x128x256.size a
  hwx0_0 : ∀ i : grid0.Coords, EltTy.bits .f32 = 32 ∨ (Rect.block (s := S8x128x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256.size a ≤ S8x128x256.size a
  hwx0_1 : ∀ i : grid0.Coords, EltTy.bits .f32 = 32 ∨ (Rect.block (s := S8x128x256) S1x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x32x1.size a ≤ S8x128x128x1.size a
  hwx0_9 : ∀ i : grid0.Coords, EltTy.bits .f32 = 32 ∨ (Rect.block (s := S8x128x128x1) S1x128x32x1.size (cc0_transform_9 i) (hinb0_9 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128x32x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x128x256 : Shape := ⟨3, ![8, 128, 256]⟩
abbrev S8x128 : Shape := ⟨2, ![8, 128]⟩
abbrev S256x256 : Shape := ⟨2, ![256, 256]⟩
abbrev S768x256 : Shape := ⟨2, ![768, 256]⟩
abbrev S256 : Shape := ⟨1, ![256]⟩
abbrev S256x1 : Shape := ⟨2, ![256, 1]⟩
abbrev S1 : Shape := ⟨1, ![1]⟩
abbrev S8x128x1x256 : Shape := ⟨4, ![8, 128, 1, 256]⟩
abbrev S8x128x128x256 : Shape := ⟨4, ![8, 128, 128, 256]⟩
abbrev S8x1x128x256 : Shape := ⟨4, ![8, 1, 128, 256]⟩
abbrev S_ : Shape := ⟨0, ![]⟩
abbrev S8x256 : Shape := ⟨2, ![8, 256]⟩
abbrev S8x1x1x256 : Shape := ⟨4, ![8, 1, 1, 256]⟩
abbrev S8x128x128x768 : Shape := ⟨4, ![8, 128, 128, 768]⟩
abbrev S1x1x1x256 : Shape := ⟨4, ![1, 1, 1, 256]⟩
abbrev S8x128x128x1 : Shape := ⟨4, ![8, 128, 128, 1]⟩
abbrev S1x1x1x1 : Shape := ⟨4, ![1, 1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S8x128, .i1⟩
  | .hbm, ⟨2, _⟩ => ⟨S256x256, .f32⟩
  | .hbm, ⟨3, _⟩ => ⟨S768x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S8x128x1x256, .f32⟩
  | .hbm, ⟨8, _⟩ => ⟨S8x128x128x256, .f32⟩
  | .hbm, ⟨9, _⟩ => ⟨S8x1x128x256, .f32⟩
  | .hbm, ⟨10, _⟩ => ⟨S8x128x128x256, .f32⟩
  | .hbm, ⟨11, _⟩ => ⟨S_, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x1x1x256, .f32⟩
  | .hbm, ⟨18, _⟩ => ⟨S8x128x128x256, .f32⟩
  | .hbm, ⟨19, _⟩ => ⟨S8x128x128x768, .f32⟩
  | .hbm, ⟨20, _⟩ => ⟨S_, .f32⟩
  | .hbm, ⟨21, _⟩ => ⟨S8x128x128x768, .f32⟩
  | .hbm, ⟨22, _⟩ => ⟨S8x128x128x768, .f32⟩
  | .hbm, ⟨23, _⟩ => ⟨S8x128x128x256, .f32⟩
  | .hbm, ⟨24, _⟩ => ⟨S1x1x1x256, .f32⟩
  | .hbm, ⟨25, _⟩ => ⟨S8x128x128x256, .f32⟩
  | .hbm, ⟨26, _⟩ => ⟨S8x128x128x256, .f32⟩
  | .hbm, ⟨27, _⟩ => ⟨S_, .f32⟩
  | .hbm, ⟨28, _⟩ => ⟨S8x128x128x256, .f32⟩
  | .hbm, ⟨29, _⟩ => ⟨S8x128x128x256, .f32⟩
  | .hbm, ⟨30, _⟩ => ⟨S8x128x128x1, .f32⟩
  | .hbm, ⟨31, _⟩ => ⟨S1x1x1x1, .f32⟩
  | .hbm, ⟨32, _⟩ => ⟨S8x128x128x1, .f32⟩
  | .hbm, ⟨33, _⟩ => ⟨S8x128x128x1, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S8x128x256_S8x128x1x256_0_1_3 : S8x128x256.BroadcastsInDim S8x128x1x256 (![0, 1, 3] : Fin 3 → Fin S8x128x1x256.rank)
  bcast_S8x128x1x256_S8x128x128x256_0_1_2_3 : S8x128x1x256.BroadcastsInDim S8x128x128x256 (![0, 1, 2, 3] : Fin 4 → Fin S8x128x128x256.rank)
  bcast_S8x128x256_S8x1x128x256_0_2_3 : S8x128x256.BroadcastsInDim S8x1x128x256 (![0, 2, 3] : Fin 3 → Fin S8x1x128x256.rank)
  bcast_S8x1x128x256_S8x128x128x256_0_1_2_3 : S8x1x128x256.BroadcastsInDim S8x128x128x256 (![0, 1, 2, 3] : Fin 4 → Fin S8x128x128x256.rank)
  reducesTo_S8x128x256_S8x256_d1 : S8x128x256.ReducesTo [1] S8x256
  h_S_ : 0 < S_.numel
  bcast_S_S8x256 : S_.BroadcastsInDim S8x256 (![] : Fin 0 → Fin S8x256.rank)
  bcast_S8x256_S8x1x1x256_0_3 : S8x256.BroadcastsInDim S8x1x1x256 (![0, 3] : Fin 2 → Fin S8x1x1x256.rank)
  bcast_S8x1x1x256_S8x128x128x256_0_1_2_3 : S8x1x1x256.BroadcastsInDim S8x128x128x256 (![0, 1, 2, 3] : Fin 4 → Fin S8x128x128x256.rank)
  concatenates_S8x128x128x256_S8x128x128x256_S8x128x128x256_S8x128x128x768_d3 : Shape.Concatenates [S8x128x128x256, S8x128x128x256, S8x128x128x256] S8x128x128x768 3
  bcast_S_S8x128x128x768 : S_.BroadcastsInDim S8x128x128x768 (![] : Fin 0 → Fin S8x128x128x768.rank)
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  bcast_S_S8x128x128x256 : S_.BroadcastsInDim S8x128x128x256 (![] : Fin 0 → Fin S8x128x128x256.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  dot_S8x256_S256x256_S8x256_1_0_0_1_n_n_wf : DotDims.WF S8x256 S256x256 S8x256 [1] [0] [0] [1] [] []
  dot_S8x128x128x768_S768x256_S8x128x128x256_3_0_012_1_n_n_wf : DotDims.WF S8x128x128x768 S768x256 S8x128x128x256 [3] [0] [0, 1, 2] [1] [] []
  dot_S8x128x128x256_S256x1_S8x128x128x1_3_0_012_1_n_n_wf : DotDims.WF S8x128x128x256 S256x1 S8x128x128x1 [3] [0] [0, 1, 2] [1] [] []

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x128x128x768_S768x256_S8x128x128x256_3_0_012_1_n_n : DotDims S8x128x128x768 S768x256 S8x128x128x256 where
  lhsContracting := [3]
  rhsContracting := [0]
  lhsNonContracting := [0, 1, 2]
  rhsNonContracting := [1]
  lhsBatch := []
  rhsBatch := []
  wf := dot_S8x128x128x768_S768x256_S8x128x128x256_3_0_012_1_n_n_wf
def dot_S8x128x128x256_S256x1_S8x128x128x1_3_0_012_1_n_n : DotDims S8x128x128x256 S256x1 S8x128x128x1 where
  lhsContracting := [3]
  rhsContracting := [0]
  lhsNonContracting := [0, 1, 2]
  rhsNonContracting := [1]
  lhsBatch := []
  rhsBatch := []
  wf := dot_S8x128x128x256_S256x1_S8x128x128x1_3_0_012_1_n_n_wf

class Facts : Prop extends Facts₀ where

variable [Facts]
-- ==== Proof.Kernel.Entry.lean ====
/-
  The kernel region of the program, part one: what the core's buffers hold when the region is entered, each
  window's block at a grid point, and the value the kernel body stores.

  The region is entered after ten host operations: three row slices of W1 (rows 0–255, 256–511, 512–767), four
  changes of format (Wp and the three slices), and three reshapes (b1, W2, b2 as rows). The grid is 8 × 4: point
  (b, jt) reads batch b of the node embeddings whole (window 0), rows 32·jt … 32·jt+31 of the same batch
  (window 1: the SAME array as window 0), the four weight matrices and three rows whole (windows 2–8), and writes
  the [1, 128, 32, 1] block (b, ·, jt, ·) of the result (window 9).

  The body loads each input buffer whole, and stores ONE value — a pure function of the nine input loads — over the
  whole output buffer.
-/
import proofs.«153392_j67302137528982_1_alg».proof.Proof.Gen.Kernel.Launch
import proofs.«153392_j67302137528982_1_alg».proof.Proof.Gen.Kernel.Skeleton
import proofs.«153392_j67302137528982_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s buffers when the region is entered: the launch contents run through the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region, then the return. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_of_arg (c : Dev nD) (b : Ref sig .tc)
    (hb : ∀ b' ∈ ([main_v0, main_v1, main_v2, main_v3, main_v4, main_v5, main_v6, main_v7, main_v8, main_v9] : List (Ref sig .tc)), b' ≠ b) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    simp only [List.mem_cons, List.mem_nil_iff, or_false, forall_eq_or_imp, forall_eq] at hb
    obtain ⟨h0, h1, h2, h3, h4, h5, h6, h7, h8, h9⟩ := hb
    refine ⟨?_, ?_, ?_, ?_, ?_, ?_, ?_, ?_, ?_, ?_⟩ <;> apply StableHlo.devRef_ne_of_ne <;> (first | exact fun h => h0 h.symm | exact fun h => h1 h.symm | exact fun h => h2 h.symm | exact fun h => h3 h.symm | exact fun h => h4 h.symm | exact fun h => h5 h.symm | exact fun h => h6 h.symm | exact fun h => h7 h.symm | exact fun h => h8 h.symm | exact fun h => h9 h.symm)))

theorem V_main_arg0 (c : Dev nD) : V m c main_arg0 = m ((c : Thread nD τ).loc main_arg0) := V_of_arg m c _ (by decide)
theorem V_main_arg1 (c : Dev nD) : V m c main_arg1 = m ((c : Thread nD τ).loc main_arg1) := V_of_arg m c _ (by decide)
theorem V_main_arg2 (c : Dev nD) : V m c main_arg2 = m ((c : Thread nD τ).loc main_arg2) := V_of_arg m c _ (by decide)
theorem V_main_arg3 (c : Dev nD) : V m c main_arg3 = m ((c : Thread nD τ).loc main_arg3) := V_of_arg m c _ (by decide)
theorem V_main_arg4 (c : Dev nD) : V m c main_arg4 = m ((c : Thread nD τ).loc main_arg4) := V_of_arg m c _ (by decide)
theorem V_main_arg5 (c : Dev nD) : V m c main_arg5 = m ((c : Thread nD τ).loc main_arg5) := V_of_arg m c _ (by decide)
theorem V_main_arg6 (c : Dev nD) : V m c main_arg6 = m ((c : Thread nD τ).loc main_arg6) := V_of_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The value the body stores -/

abbrev rOut : Rect S1x128x32x1 := Rect.unit (s := S1x128x32x1) ![0, 0, 0, 0] S1x128x32x1.size inb_S1x128x32x1_S1x128x32x1_0_0_0_0

/-- The value the body stores, from the nine input blocks: the body's pure payloads composed. -/
def stored (x0 : Vec F S1x128x256 .f32) (x1 : Vec F S1x32x256 .f32) (x2 x3 x4 x5 : Vec F S256x256 .bf16)
    (x6 x7 : Vec F S1x256 .f32) (x8 : Vec F S1x1 .f32) : FVec F S1x128x32x1 .f32 :=
  k0_pay1 (k0_pay3 x0 x4) (k0_pay4 x1 x5) (k0_pay5 x7) (k0_pay6 x0 x2 x3) x6 x8

end Cert.Kernel.Region

end
-- ==== Proof.Kernel.Body.lean ====
/-
  The kernel body's triple: on whole staging buffers, the nine inputs' at given contents and the output's at
  anything, the body runs to the end leaving the inputs as they were and the output buffer at its one store.
-/
import proofs.«153392_j67302137528982_1_alg».proof.Proof.Kernel.Entry

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the body leaves in the output window's buffer -/

/-- The rectangles of the body's loads: each input buffer whole. -/
abbrev rIn0 : Rect S1x128x256 := Rect.unit (s := S1x128x256) ![0, 0, 0] S1x128x256.size inb_S1x128x256_S1x128x256_0_0_0
abbrev rIn1 : Rect S1x32x256 := Rect.unit (s := S1x32x256) ![0, 0, 0] S1x32x256.size inb_S1x32x256_S1x32x256_0_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0

/-- Window 9's staging buffer after the body: its one store, over the whole buffer, of the stored value of the nine
    input buffers as loaded. -/
def outBuf (x0 : Vec F S1x128x256 .f32) (x1 : Vec F S1x32x256 .f32) (x2 x3 x4 x5 : Vec F S256x256 .bf16)
    (x6 x7 : Vec F S1x256 .f32) (x8 : Vec F S1x1 .f32) : Vec F S1x128x32x1 .f32 :=
  View.canon [⟨rOut, stored (View.ld x0 rIn0) (View.ld x1 rIn1) (View.ld x2 rMat) (View.ld x3 rMat) (View.ld x4 rMat) (View.ld x5 rMat)
    (View.ld x6 rRow) (View.ld x7 rRow) (View.ld x8 rOne)⟩]

/-- The store's rectangle is the whole buffer. -/
theorem coverOut (p0 : Vec F S1x128x32x1 .f32) (y : S1x128x32x1.Idx) :
    ∃ pc ∈ ([⟨rOut, p0⟩] : List (View.Piece (Elt F) S1x128x32x1 .f32)), y ∈ pc.1.set :=
  View.cover_of_tiled [⟨rOut, p0⟩] S1x128x32x1.size (by rfl) y

set_option maxHeartbeats 1000000 in
/-- The body reads its nine input buffers and overwrites the output buffer with `outBuf` of what it read. The
    output buffer is also loaded once (the value is not used), so it is held at some contents throughout. -/
theorem sound_kernel (c : Dev nD) (E : Set ℕ) (i : grid0.Coords)
    (arg2 : Memref sig .tc .vmem S1x128x256 .f32) (harg2 : arg2.IsWhole) (arg3 : Memref sig .tc .vmem S1x32x256 .f32) (harg3 : arg3.IsWhole)
    (arg4 : Memref sig .tc .vmem S256x256 .bf16) (harg4 : arg4.IsWhole) (arg5 : Memref sig .tc .vmem S256x256 .bf16) (harg5 : arg5.IsWhole)
    (arg6 : Memref sig .tc .vmem S256x256 .bf16) (harg6 : arg6.IsWhole) (arg7 : Memref sig .tc .vmem S256x256 .bf16) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1x1 .f32) (harg10 : arg10.IsWhole) (arg11 : Memref sig .tc .vmem S1x128x32x1 .f32) (harg11 : arg11.IsWhole)
    (x0 : Vec F S1x128x256 .f32) (x1 : Vec F S1x32x256 .f32) (x2 x3 x4 x5 : Vec F S256x256 .bf16)
    (x6 x7 : Vec F S1x256 .f32) (x8 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8
            ∗ owns (c : Thread nD τ) arg11 fullShare (outBuf x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverOut (F := F) _)

end Cert.Kernel.Region

end
-- ==== Proof.Kernel.Data.lean ====
/-
  The kernel region of the program, part two: the pipeline's proof data and the body obligation at every grid point.

  Windows 0 and 1 stage blocks of ONE array (the node embeddings are passed to the kernel twice), so the array is
  held at two half shares, one per window; both windows only read it. Every other window's array is held whole.
  After the body at a point each input buffer holds its block, as before it, and the output buffer holds the
  stored value of the nine input blocks. The output's index map (b, jt) ↦ (b, 0, jt, 0) visits each block once and
  the block is written back at every point.
-/
import proofs.«153392_j67302137528982_1_alg».proof.Proof.Kernel.Body

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t` each
    input's buffer at its block and the output's at the stored value of the input blocks; between points the core's
    scoped buffers that are no staging buffer (there are none); the node embeddings at a half share for each of the two
    windows that read them, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBuf (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBuf (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not: where it is not fetched
    its block index has not moved since the last fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.Kernel.Run.lean ====
/-
  The kernel region of the program, part three: the arrays at the region's entry split among the windows, and the run
  of @main to the end — every weakly fair execution terminates, each window's array ends at what the write-backs
  leave, and every other buffer ends as the region found it.
-/
import proofs.«153392_j67302137528982_1_alg».proof.Proof.Kernel.Data

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, window by window -/

/-- The nine distinct buffers behind the ten windows' arrays, each held whole, are the windows' arrays at their shares:
    the node embeddings split into two halves, one for each window that reads them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg0) ↦{fullShare} V m c main_arg0)
        ∗ (((c : Thread nD τ).loc main_v3) ↦{fullShare} V m c main_v3)
        ∗ (((c : Thread nD τ).loc main_v4) ↦{fullShare} V m c main_v4)
        ∗ (((c : Thread nD τ).loc main_v5) ↦{fullShare} V m c main_v5)
        ∗ (((c : Thread nD τ).loc main_v6) ↦{fullShare} V m c main_v6)
        ∗ (((c : Thread nD τ).loc main_v8) ↦{fullShare} V m c main_v8)
        ∗ (((c : Thread nD τ).loc main_v7) ↦{fullShare} V m c main_v7)
        ∗ (((c : Thread nD τ).loc main_v9) ↦{fullShare} V m c main_v9)
        ∗ (((c : Thread nD τ).loc main_v10) ↦{fullShare} V m c main_v10)) :=
    bigSep_eq_bigSepL_of_eq [main_arg0, main_v3, main_v4, main_v5, main_v6, main_v8, main_v7, main_v9, main_v10] (by decide) (by decide) _
  have hcong : (dats m 0 c).arrays ((dats m 0 c).arrAt · 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, hcong, bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H2, H3, H4, H5, H6, H7, H8, H9⟩
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

/-- At the compiled mesh, from any memory with zero counters: every weakly fair execution of @main terminates, and in
    every final state each window's array holds what the write-backs leave (an input its entry contents) and every
    other unscoped buffer what the region found. The launch is the one for windows that share an array: the kernel has no
    semaphore of its own, its invariant between points is the scoped rest, and the unscoped buffers no window stages
    bypass the region and are read back at the end. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Region

end
-- ==== Proof.Kernel.Frame.lean ====
/-
  The frame of the kernel program: every weakly fair execution of @main terminates without a fault and leaves the seven
  argument arrays as launched. The node embeddings are staged by two input windows and never written back; the other
  six arguments are read only by host operations and bypass the region.
-/
import proofs.«153392_j67302137528982_1_alg».proof.Proof.Kernel.Run

noncomputable section

namespace Cert.Kernel.Region

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-- After the run the node embeddings are as launched: window 0 stages them and nothing writes them back. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the run an argument no window stages is as the region found it, which is as launched. -/
theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
theorem kept_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- The run with the result array named — what the write-backs of the 32 points leave in it — and the arguments unchanged. -/
theorem run_named : θ_run defs (onTc (τ := τ) (main (F := F))) ⟨m, fun _ => 0, ρ⟩ fun r => ∀ c : Dev nD,
      r.2.mem ((c.tc : Thread nD τ).loc main_v10) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 9, kept_arg0 m r h c, kept_arg1 m r h c, kept_arg2 m r h c, kept_arg3 m r h c,
      kept_arg4 m r h c, kept_arg5 m r h c, kept_arg6 m r h c⟩)
    (run_main m ρ)

/-- The frame claim's run, at any reading of the floats. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => (h c).2) (run_named m ρ)

end Cert.Kernel.Region

end
-- ==== Proof.KernelIdeal.Entry.lean ====
/-
  The kernel region of the program, part one: what the core's buffers hold when the region is entered, each
  window's block at a grid point, and the value the kernel body stores.

  The region is entered after ten host operations: three row slices of W1 (rows 0–255, 256–511, 512–767), four
  changes of format (Wp and the three slices), and three reshapes (b1, W2, b2 as rows). The grid is 8 × 4: point
  (b, jt) reads batch b of the node embeddings whole (window 0), rows 32·jt … 32·jt+31 of the same batch
  (window 1: the SAME array as window 0), the four weight matrices and three rows whole (windows 2–8), and writes
  the [1, 128, 32, 1] block (b, ·, jt, ·) of the result (window 9).

  The body loads each input buffer whole, and stores ONE value — a pure function of the nine input loads — over the
  whole output buffer.
-/
import proofs.«153392_j67302137528982_1_alg».proof.Proof.Gen.KernelIdeal.Launch
import proofs.«153392_j67302137528982_1_alg».proof.Proof.Gen.KernelIdeal.Skeleton
import proofs.«153392_j67302137528982_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s buffers when the region is entered: the launch contents run through the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region, then the return. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_of_arg (c : Dev nD) (b : Ref sig .tc)
    (hb : ∀ b' ∈ ([main_v0, main_v1, main_v2, main_v3, main_v4, main_v5, main_v6, main_v7, main_v8, main_v9] : List (Ref sig .tc)), b' ≠ b) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    simp only [List.mem_cons, List.mem_nil_iff, or_false, forall_eq_or_imp, forall_eq] at hb
    obtain ⟨h0, h1, h2, h3, h4, h5, h6, h7, h8, h9⟩ := hb
    refine ⟨?_, ?_, ?_, ?_, ?_, ?_, ?_, ?_, ?_, ?_⟩ <;> apply StableHlo.devRef_ne_of_ne <;> (first | exact fun h => h0 h.symm | exact fun h => h1 h.symm | exact fun h => h2 h.symm | exact fun h => h3 h.symm | exact fun h => h4 h.symm | exact fun h => h5 h.symm | exact fun h => h6 h.symm | exact fun h => h7 h.symm | exact fun h => h8 h.symm | exact fun h => h9 h.symm)))

theorem V_main_arg0 (c : Dev nD) : V m c main_arg0 = m ((c : Thread nD τ).loc main_arg0) := V_of_arg m c _ (by decide)
theorem V_main_arg1 (c : Dev nD) : V m c main_arg1 = m ((c : Thread nD τ).loc main_arg1) := V_of_arg m c _ (by decide)
theorem V_main_arg2 (c : Dev nD) : V m c main_arg2 = m ((c : Thread nD τ).loc main_arg2) := V_of_arg m c _ (by decide)
theorem V_main_arg3 (c : Dev nD) : V m c main_arg3 = m ((c : Thread nD τ).loc main_arg3) := V_of_arg m c _ (by decide)
theorem V_main_arg4 (c : Dev nD) : V m c main_arg4 = m ((c : Thread nD τ).loc main_arg4) := V_of_arg m c _ (by decide)
theorem V_main_arg5 (c : Dev nD) : V m c main_arg5 = m ((c : Thread nD τ).loc main_arg5) := V_of_arg m c _ (by decide)
theorem V_main_arg6 (c : Dev nD) : V m c main_arg6 = m ((c : Thread nD τ).loc main_arg6) := V_of_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The value the body stores -/

abbrev rOut : Rect S1x128x32x1 := Rect.unit (s := S1x128x32x1) ![0, 0, 0, 0] S1x128x32x1.size inb_S1x128x32x1_S1x128x32x1_0_0_0_0

/-- The value the body stores, from the nine input blocks: the body's pure payloads composed. -/
def stored (x0 : Vec F S1x128x256 .f32) (x1 : Vec F S1x32x256 .f32) (x2 x3 x4 x5 : Vec F S256x256 .bf16)
    (x6 x7 : Vec F S1x256 .f32) (x8 : Vec F S1x1 .f32) : FVec F S1x128x32x1 .f32 :=
  k0_pay1 (k0_pay3 x0 x4) (k0_pay4 x1 x5) (k0_pay5 x7) (k0_pay6 x0 x2 x3) x6 x8

end Cert.KernelIdeal.Region

end
-- ==== Proof.KernelIdeal.Body.lean ====
/-
  The kernel body's triple: on whole staging buffers, the nine inputs' at given contents and the output's at
  anything, the body runs to the end leaving the inputs as they were and the output buffer at its one store.
-/
import proofs.«153392_j67302137528982_1_alg».proof.Proof.KernelIdeal.Entry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the body leaves in the output window's buffer -/

/-- The rectangles of the body's loads: each input buffer whole. -/
abbrev rIn0 : Rect S1x128x256 := Rect.unit (s := S1x128x256) ![0, 0, 0] S1x128x256.size inb_S1x128x256_S1x128x256_0_0_0
abbrev rIn1 : Rect S1x32x256 := Rect.unit (s := S1x32x256) ![0, 0, 0] S1x32x256.size inb_S1x32x256_S1x32x256_0_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0

/-- Window 9's staging buffer after the body: its one store, over the whole buffer, of the stored value of the nine
    input buffers as loaded. -/
def outBuf (x0 : Vec F S1x128x256 .f32) (x1 : Vec F S1x32x256 .f32) (x2 x3 x4 x5 : Vec F S256x256 .bf16)
    (x6 x7 : Vec F S1x256 .f32) (x8 : Vec F S1x1 .f32) : Vec F S1x128x32x1 .f32 :=
  View.canon [⟨rOut, stored (View.ld x0 rIn0) (View.ld x1 rIn1) (View.ld x2 rMat) (View.ld x3 rMat) (View.ld x4 rMat) (View.ld x5 rMat)
    (View.ld x6 rRow) (View.ld x7 rRow) (View.ld x8 rOne)⟩]

/-- The store's rectangle is the whole buffer. -/
theorem coverOut (p0 : Vec F S1x128x32x1 .f32) (y : S1x128x32x1.Idx) :
    ∃ pc ∈ ([⟨rOut, p0⟩] : List (View.Piece (Elt F) S1x128x32x1 .f32)), y ∈ pc.1.set :=
  View.cover_of_tiled [⟨rOut, p0⟩] S1x128x32x1.size (by rfl) y

set_option maxHeartbeats 1000000 in
/-- The body reads its nine input buffers and overwrites the output buffer with `outBuf` of what it read. The
    output buffer is also loaded once (the value is not used), so it is held at some contents throughout. -/
theorem sound_kernel (c : Dev nD) (E : Set ℕ) (i : grid0.Coords)
    (arg2 : Memref sig .tc .vmem S1x128x256 .f32) (harg2 : arg2.IsWhole) (arg3 : Memref sig .tc .vmem S1x32x256 .f32) (harg3 : arg3.IsWhole)
    (arg4 : Memref sig .tc .vmem S256x256 .bf16) (harg4 : arg4.IsWhole) (arg5 : Memref sig .tc .vmem S256x256 .bf16) (harg5 : arg5.IsWhole)
    (arg6 : Memref sig .tc .vmem S256x256 .bf16) (harg6 : arg6.IsWhole) (arg7 : Memref sig .tc .vmem S256x256 .bf16) (harg7 : arg7.IsWhole)
    (arg8 : Memref sig .tc .vmem S1x256 .f32) (harg8 : arg8.IsWhole) (arg9 : Memref sig .tc .vmem S1x256 .f32) (harg9 : arg9.IsWhole)
    (arg10 : Memref sig .tc .vmem S1x1 .f32) (harg10 : arg10.IsWhole) (arg11 : Memref sig .tc .vmem S1x128x32x1 .f32) (harg11 : arg11.IsWhole)
    (x0 : Vec F S1x128x256 .f32) (x1 : Vec F S1x32x256 .f32) (x2 x3 x4 x5 : Vec F S256x256 .bf16)
    (x6 x7 : Vec F S1x256 .f32) (x8 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8 ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8
            ∗ owns (c : Thread nD τ) arg11 fullShare (outBuf x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (coverOut (F := F) _)

end Cert.KernelIdeal.Region

end
-- ==== Proof.KernelIdeal.Data.lean ====
/-
  The kernel region of the program, part two: the pipeline's proof data and the body obligation at every grid point.

  Windows 0 and 1 stage blocks of ONE array (the node embeddings are passed to the kernel twice), so the array is
  held at two half shares, one per window; both windows only read it. Every other window's array is held whole.
  After the body at a point each input buffer holds its block, as before it, and the output buffer holds the
  stored value of the nine input blocks. The output's index map (b, jt) ↦ (b, 0, jt, 0) visits each block once and
  the block is written back at every point.
-/
import proofs.«153392_j67302137528982_1_alg».proof.Proof.KernelIdeal.Body

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t` each
    input's buffer at its block and the output's at the stored value of the input blocks; between points the core's
    scoped buffers that are no staging buffer (there are none); the node embeddings at a half share for each of the two
    windows that read them, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBuf (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBuf (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not: where it is not fetched
    its block index has not moved since the last fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KernelIdeal.Run.lean ====
/-
  The kernel region of the program, part three: the arrays at the region's entry split among the windows, and the run
  of @main to the end — every weakly fair execution terminates, each window's array ends at what the write-backs
  leave, and every other buffer ends as the region found it.
-/
import proofs.«153392_j67302137528982_1_alg».proof.Proof.KernelIdeal.Data

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, window by window -/

/-- The nine distinct buffers behind the ten windows' arrays, each held whole, are the windows' arrays at their shares:
    the node embeddings split into two halves, one for each window that reads them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg0) ↦{fullShare} V m c main_arg0)
        ∗ (((c : Thread nD τ).loc main_v3) ↦{fullShare} V m c main_v3)
        ∗ (((c : Thread nD τ).loc main_v4) ↦{fullShare} V m c main_v4)
        ∗ (((c : Thread nD τ).loc main_v5) ↦{fullShare} V m c main_v5)
        ∗ (((c : Thread nD τ).loc main_v6) ↦{fullShare} V m c main_v6)
        ∗ (((c : Thread nD τ).loc main_v8) ↦{fullShare} V m c main_v8)
        ∗ (((c : Thread nD τ).loc main_v7) ↦{fullShare} V m c main_v7)
        ∗ (((c : Thread nD τ).loc main_v9) ↦{fullShare} V m c main_v9)
        ∗ (((c : Thread nD τ).loc main_v10) ↦{fullShare} V m c main_v10)) :=
    bigSep_eq_bigSepL_of_eq [main_arg0, main_v3, main_v4, main_v5, main_v6, main_v8, main_v7, main_v9, main_v10] (by decide) (by decide) _
  have hcong : (dats m 0 c).arrays ((dats m 0 c).arrAt · 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, hcong, bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H2, H3, H4, H5, H6, H7, H8, H9⟩
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

/-- At the compiled mesh, from any memory with zero counters: every weakly fair execution of @main terminates, and in
    every final state each window's array holds what the write-backs leave (an input its entry contents) and every
    other unscoped buffer what the region found. The launch is the one for windows that share an array: the kernel has no
    semaphore of its own, its invariant between points is the scoped rest, and the unscoped buffers no window stages
    bypass the region and are read back at the end. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Region

end
-- ==== Proof.KernelIdeal.Frame.lean ====
/-
  The frame of the kernel program: every weakly fair execution of @main terminates without a fault and leaves the seven
  argument arrays as launched. The node embeddings are staged by two input windows and never written back; the other
  six arguments are read only by host operations and bypass the region.
-/
import proofs.«153392_j67302137528982_1_alg».proof.Proof.KernelIdeal.Run

noncomputable section

namespace Cert.KernelIdeal.Region

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- After the run the node embeddings are as launched: window 0 stages them and nothing writes them back. -/
theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the run an argument no window stages is as the region found it, which is as launched. -/
theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
theorem kept_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- The run with the result array named — what the write-backs of the 32 points leave in it — and the arguments unchanged. -/
theorem run_named : θ_run defs (onTc (τ := τ) (main (F := F))) ⟨m, fun _ => 0, ρ⟩ fun r => ∀ c : Dev nD,
      r.2.mem ((c.tc : Thread nD τ).loc main_v10) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 9, kept_arg0 m r h c, kept_arg1 m r h c, kept_arg2 m r h c, kept_arg3 m r h c,
      kept_arg4 m r h c, kept_arg5 m r h c, kept_arg6 m r h c⟩)
    (run_main m ρ)

/-- The frame claim's run, at any reading of the floats. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => (h c).2) (run_named m ρ)

end Cert.KernelIdeal.Region

end
-- ==== Proof.Readout.lean ====
/-
  The readout layer, as one function of the argument arrays on the extended reals.

  For a batch `b` and a pair of nodes `(i, j)`:
    mean[f]   = (Σ_n x[b, n, f]) · (1/128)
    pooled[g] = Σ_f mean[f] · Wp[f, g]
    pre[h]    = Σ_g relu(pooled[g]) · W1[g, h] + Σ_f relu(x[b, i, f]) · W1[256 + f, h] + Σ_f relu(x[b, j, f]) · W1[512 + f, h] + b1[h]
    out       = Σ_h relu(pre[h]) · W2[h, 0] + b2[0]
  with relu(y) = max y 0. `core` is that value over the rows it reads; `G` places it at the index (b, i, j, 0).
-/
import Idealize.ShloMosaic.PureOps.Ideal
import Idealize.ShloMosaic.Lib.ValueIdx

noncomputable section

namespace Cert.Readout

open Idealize.ShloMosaic Idealize.ShloMosaic.ValueIdx

/-- The reciprocal of the node count. -/
def inv128 : EReal := ((1 / 128 : ℝ) : EReal)

/-- The pooled branch's contribution to hidden unit `h`: the batch mean through `Wp`, rectified, through the first row block of `W1`. -/
def pooledTerm (xb : Fin 128 → Fin 256 → EReal) (Wp W1p : Fin 256 → Fin 256 → EReal) (h : Fin 256) : EReal :=
  ∑ g : Fin 256, max (∑ f : Fin 256, ((∑ n : Fin 128, xb n f) * inv128) * Wp f g) 0 * W1p g h

/-- The readout of one pair: `xb` the batch's nodes, `xi` and `xj` the pair's two rows, the weights by row block. -/
def core (xb : Fin 128 → Fin 256 → EReal) (xi xj : Fin 256 → EReal)
    (Wp W1p W1i W1j : Fin 256 → Fin 256 → EReal) (b1 w2 : Fin 256 → EReal) (b2 : EReal) : EReal :=
  (∑ h : Fin 256,
      max (((pooledTerm xb Wp W1p h + ∑ f : Fin 256, max (xi f) 0 * W1i f h) + ∑ f : Fin 256, max (xj f) 0 * W1j f h) + b1 h) 0 * w2 h)
    + b2

/-- Row `g` of the first, second, third 256-row block of a 768-row matrix. -/
def rowP (g : Fin 256) : Fin 768 := ⟨g.val, by omega⟩
def rowI (f : Fin 256) : Fin 768 := ⟨256 + f.val, by omega⟩
def rowJ (f : Fin 256) : Fin 768 := ⟨512 + f.val, by omega⟩

/-- The readout at batch `b`, pair `(i, j)`, from the argument arrays. -/
def Gat (x : (⟨3, ![8, 128, 256]⟩ : Shape).Idx → EReal) (Wp : (⟨2, ![256, 256]⟩ : Shape).Idx → EReal)
    (W1 : (⟨2, ![768, 256]⟩ : Shape).Idx → EReal) (b1 : (⟨1, ![256]⟩ : Shape).Idx → EReal)
    (W2 : (⟨2, ![256, 1]⟩ : Shape).Idx → EReal) (b2 : (⟨1, ![1]⟩ : Shape).Idx → EReal)
    (b : Fin 8) (i j : Fin 128) : EReal :=
  core (fun n f => x (ix3 b n f)) (fun f => x (ix3 b i f)) (fun f => x (ix3 b j f))
    (fun f g => Wp (ix2 f g)) (fun g h => W1 (ix2 (rowP g) h)) (fun f h => W1 (ix2 (rowI f) h)) (fun f h => W1 (ix2 (rowJ f) h))
    (fun h => b1 (ix1 h)) (fun h => W2 (ix2 h 0)) (b2 (ix1 0))

/-- The whole result array. -/
def G (x : (⟨3, ![8, 128, 256]⟩ : Shape).Idx → EReal) (Wp : (⟨2, ![256, 256]⟩ : Shape).Idx → EReal)
    (W1 : (⟨2, ![768, 256]⟩ : Shape).Idx → EReal) (b1 : (⟨1, ![256]⟩ : Shape).Idx → EReal)
    (W2 : (⟨2, ![256, 1]⟩ : Shape).Idx → EReal) (b2 : (⟨1, ![1]⟩ : Shape).Idx → EReal) :
    (⟨4, ![8, 128, 128, 1]⟩ : Shape).Idx → EReal :=
  fun idx => Gat x Wp W1 b1 W2 b2 (idx 0) (idx 1) (idx 2)

theorem G_ix4 (x : (⟨3, ![8, 128, 256]⟩ : Shape).Idx → EReal) (Wp : (⟨2, ![256, 256]⟩ : Shape).Idx → EReal)
    (W1 : (⟨2, ![768, 256]⟩ : Shape).Idx → EReal) (b1 : (⟨1, ![256]⟩ : Shape).Idx → EReal)
    (W2 : (⟨2, ![256, 1]⟩ : Shape).Idx → EReal) (b2 : (⟨1, ![1]⟩ : Shape).Idx → EReal)
    (b : Fin 8) (i j : Fin 128) (o : Fin 1) : G x Wp W1 b1 W2 b2 (ix4 b i j o) = Gat x Wp W1 b1 W2 b2 b i j := rfl

end Cert.Readout

end
-- ==== Proof.KernelIdeal.Stored.lean ====
/-
  The value the kernel body stores, read at an index of its [1, 128, 32, 1] block: the readout `Readout.core` of the
  rows of the input blocks that the index names.
-/
import proofs.«153392_j67302137528982_1_alg».proof.Proof.KernelIdeal.Entry
import proofs.«153392_j67302137528982_1_alg».proof.Proof.Readout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stored

open Cert.KernelIdeal Cert.KernelIdeal.Gen Idealize.ShloMosaic Idealize.ShloMosaic.ValueIdx

/-! ## Layout operations at an index, for the shapes the body meets -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The one row `[1, 1, 256]` broadcast over 128 rows `[128, 1, 256]` reads, at `(i, u, k)`, the row at `k`. -/
theorem broadcastTo_row_rows_apply (v : S1x1x256.Idx → α) (h : S1x1x256.Broadcasts S128x1x256) (i : Fin 128) (u : Fin 1) (k : Fin 256) :
    broadcastTo S128x1x256 v h (ix3 i u k) = v (ix3 (0 : Fin 1) (0 : Fin 1) k) :=
  broadcastTo_apply v h (ix3 i u k) (ix3 (0 : Fin 1) (0 : Fin 1) k) fun ax => match ax with
    | ⟨0, _⟩ => rfl
    | ⟨1, _⟩ => rfl
    | ⟨2, _⟩ => rfl

/-- `[128, 1, 256]` broadcast along its unit axis to `[128, 32, 256]` reads, at `(i, j, k)`, the operand at `(i, 0, k)`. -/
theorem broadcastTo_rows_pairs_apply (v : S128x1x256.Idx → α) (h : S128x1x256.Broadcasts S128x32x256) (i : Fin 128) (j : Fin 32) (k : Fin 256) :
    broadcastTo S128x32x256 v h (ix3 i j k) = v (ix3 i (0 : Fin 1) k) :=
  broadcastTo_apply v h (ix3 i j k) (ix3 i (0 : Fin 1) k) fun ax => match ax with
    | ⟨0, _⟩ => rfl
    | ⟨1, _⟩ => rfl
    | ⟨2, _⟩ => rfl

/-- `[1, 32, 256]` broadcast along its leading unit axis to `[128, 32, 256]` reads, at `(i, j, k)`, the operand at `(0, j, k)`. -/
theorem broadcastTo_cols_pairs_apply (v : S1x32x256.Idx → α) (h : S1x32x256.Broadcasts S128x32x256) (i : Fin 128) (j : Fin 32) (k : Fin 256) :
    broadcastTo S128x32x256 v h (ix3 i j k) = v (ix3 (0 : Fin 1) j k) :=
  broadcastTo_apply v h (ix3 i j k) (ix3 (0 : Fin 1) j k) fun ax => match ax with
    | ⟨0, _⟩ => rfl
    | ⟨1, _⟩ => rfl
    | ⟨2, _⟩ => rfl

/-- The one row `[1, 1, 256]` broadcast to `[128, 32, 256]` reads, at `(i, j, k)`, the row at `k`. -/
theorem broadcastTo_row_pairs_apply (v : S1x1x256.Idx → α) (h : S1x1x256.Broadcasts S128x32x256) (i : Fin 128) (j : Fin 32) (k : Fin 256) :
    broadcastTo S128x32x256 v h (ix3 i j k) = v (ix3 (0 : Fin 1) (0 : Fin 1) k) :=
  broadcastTo_apply v h (ix3 i j k) (ix3 (0 : Fin 1) (0 : Fin 1) k) fun ax => match ax with
    | ⟨0, _⟩ => rfl
    | ⟨1, _⟩ => rfl
    | ⟨2, _⟩ => rfl

/-- The one element `[1, 1, 1]` broadcast to `[128, 32, 1]` reads that element everywhere. -/
theorem broadcastTo_one_pairs_apply (v : S1x1x1.Idx → α) (h : S1x1x1.Broadcasts S128x32x1) (i : Fin 128) (j : Fin 32) (u : Fin 1) :
    broadcastTo S128x32x1 v h (ix3 i j u) = v (ix3 (0 : Fin 1) (0 : Fin 1) (0 : Fin 1)) :=
  broadcastTo_apply v h (ix3 i j u) (ix3 (0 : Fin 1) (0 : Fin 1) (0 : Fin 1)) fun ax => match ax with
    | ⟨0, _⟩ => rfl
    | ⟨1, _⟩ => rfl
    | ⟨2, _⟩ => rfl

end Layout

/-! ## Constants -/

/-- The zero word is `0` (as a broadcast scalar). -/
theorem scalar_zero : (Scalar.ofBits (F := Ideal) .f32 0x00000000#32 : Ideal .f32) = 0 := Ideal.ofBits_zero_f32

/-- The word `0x3C000000`, `2⁻⁷`, is the reciprocal of the node count. -/
theorem scalar_inv128 : (Scalar.ofBits (F := Ideal) .f32 0x3C000000#32 : Ideal .f32) = Readout.inv128 := by
  show Ideal.ofBits .f32 0x3C000000#32 = _
  unfold Readout.inv128
  simp [Ideal.ofBits, Ideal.ieee, -EReal.coe_mul]; norm_num

/-! ## The two sums -/

/-- The sum over the nodes (axis 0 of `[128, 256]`) at feature `f`. -/
theorem nodeSum_apply (src : FVec Ideal S128x256 .f32) (f : Fin 256) :
    multiReduction (F := Ideal) .add [0] S256 src 0x00000000#32 reduces_S128x256_S256 (.inl rfl) rfl (ix1 f)
      = ∑ n : Fin 128, src (ix2 n f) := by
  refine (Ideal.multiReduction_add_single src _ reduces_S128x256_S256 (.inl rfl) rfl (ix1 f)).trans ?_
  refine Finset.sum_congr rfl fun n _ => congrArg src (funext fun a => Fin.ext ?_)
  match a with
  | ⟨0, _⟩ => rfl
  | ⟨1, _⟩ => rfl

/-- The sum over the hidden units (axis 2 of `[128, 32, 256]`) at the pair `(i, j)`. -/
theorem laneSum_apply (src : FVec Ideal S128x32x256 .f32) (i : Fin 128) (j : Fin 32) :
    multiReduction (F := Ideal) .add [2] S128x32 src 0x00000000#32 reduces_S128x32x256_S128x32 (.inl rfl) rfl (ix2 i j)
      = ∑ h : Fin 256, src (ix3 i j h) := by
  refine (Ideal.multiReduction_add_single src _ reduces_S128x32x256_S128x32 (.inl rfl) rfl (ix2 i j)).trans ?_
  refine Finset.sum_congr rfl fun h _ => congrArg src (funext fun a => Fin.ext ?_)
  match a with
  | ⟨0, _⟩ => rfl
  | ⟨1, _⟩ => rfl
  | ⟨2, _⟩ => rfl

/-! ## The three matrix products

Each contracts axis 1 of its left operand with axis 0 of a `[256, 256]` matrix. -/

theorem lhs_row_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_row_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_row_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_row_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- The product of 1 rows by a `[256, 256]` matrix onto the zero accumulator, at `(p, c)`: the sum over the
    contracted coordinate `k` of the left operand at `(p, k)` times the right at `(k, c)`. -/
theorem matmul_row_apply (L : FVec Ideal S1x256 .bf16) (R : FVec Ideal S256x256 .bf16) (p : Fin 1) (c : Fin 256) :
    matmul (F := Ideal) dot_S1x256_S256x256_S1x256_1_0_0_1_n_n none L R (constant (F := Ideal) S1x256 .f32 0x00000000#32) (ix2 p c)
      = ∑ k : Fin 256, L (ix2 p k) * R (ix2 k c) := by
  simp only [matmul]
  rw [Ideal.matmul_constant_zero_apply, ← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 p c) ((contrEquiv1 dot_S1x256_S256x256_S1x256_1_0_0_1_n_n 256 rfl rfl).symm k) = ix2 p k := funext fun a => Fin.ext (by
    match a with
    | ⟨0, _⟩ => exact lhs_row_0 _ _
    | ⟨1, _⟩ => exact (lhs_row_1 _ _).trans hk)
  have er : dot_S1x256_S256x256_S1x256_1_0_0_1_n_n.rhsIdx (ix2 p c) ((contrEquiv1 dot_S1x256_S256x256_S1x256_1_0_0_1_n_n 256 rfl rfl).symm k) = ix2 k c := funext fun a => Fin.ext (by
    match a with
    | ⟨0, _⟩ => exact (rhs_row_0 _ _).trans hk
    | ⟨1, _⟩ => exact rhs_row_1 _ _)
  rw [el, er]

theorem lhs_nodes_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhs_nodes_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhs_nodes_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhs_nodes_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The product of 128 rows by a `[256, 256]` matrix onto the zero accumulator, at `(p, c)`: the sum over the
    contracted coordinate `k` of the left operand at `(p, k)` times the right at `(k, c)`. -/
theorem matmul_nodes_apply (L : FVec Ideal S128x256 .bf16) (R : FVec Ideal S256x256 .bf16) (p : Fin 128) (c : Fin 256) :
    matmul (F := Ideal) dot_S128x256_S256x256_S128x256_1_0_0_1_n_n none L R (constant (F := Ideal) S128x256 .f32 0x00000000#32) (ix2 p c)
      = ∑ k : Fin 256, L (ix2 p k) * R (ix2 k c) := by
  simp only [matmul]
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 p c) ((contrEquiv1 dot_S128x256_S256x256_S128x256_1_0_0_1_n_n 256 rfl rfl).symm k) = ix2 p k := funext fun a => Fin.ext (by
    match a with
    | ⟨0, _⟩ => exact lhs_nodes_0 _ _
    | ⟨1, _⟩ => exact (lhs_nodes_1 _ _).trans hk)
  have er : dot_S128x256_S256x256_S128x256_1_0_0_1_n_n.rhsIdx (ix2 p c) ((contrEquiv1 dot_S128x256_S256x256_S128x256_1_0_0_1_n_n 256 rfl rfl).symm k) = ix2 k c := funext fun a => Fin.ext (by
    match a with
    | ⟨0, _⟩ => exact (rhs_nodes_0 _ _).trans hk
    | ⟨1, _⟩ => exact rhs_nodes_1 _ _)
  rw [el, er]

theorem lhs_cols_0 (i : S32x256.Idx) (q : dot_S32x256_S256x256_S32x256_1_0_0_1_n_n.contr.Idx) :
    (dot_S32x256_S256x256_S32x256_1_0_0_1_n_n.lhsIdx i q 0).val = (i 0).val := by
  unfold DotDims.lhsIdx
  rw [dif_neg (show ¬(0 : Fin S32x256.rank) ∈ dot_S32x256_S256x256_S32x256_1_0_0_1_n_n.lhsBatch by decide), dif_pos (show (0 : Fin S32x256.rank) ∈ dot_S32x256_S256x256_S32x256_1_0_0_1_n_n.lhsNonContracting by decide)]
  rfl
theorem lhs_cols_1 (i : S32x256.Idx) (q : dot_S32x256_S256x256_S32x256_1_0_0_1_n_n.contr.Idx) :
    (dot_S32x256_S256x256_S32x256_1_0_0_1_n_n.lhsIdx i q 1).val = (q ⟨0, by decide⟩).val :=
  dot_S32x256_S256x256_S32x256_1_0_0_1_n_n.lhsIdx_val_of_single rfl i q
theorem rhs_cols_0 (i : S32x256.Idx) (q : dot_S32x256_S256x256_S32x256_1_0_0_1_n_n.contr.Idx) :
    (dot_S32x256_S256x256_S32x256_1_0_0_1_n_n.rhsIdx i q 0).val = (q ⟨0, by decide⟩).val :=
  dot_S32x256_S256x256_S32x256_1_0_0_1_n_n.rhsIdx_val_of_single rfl i q
theorem rhs_cols_1 (i : S32x256.Idx) (q : dot_S32x256_S256x256_S32x256_1_0_0_1_n_n.contr.Idx) :
    (dot_S32x256_S256x256_S32x256_1_0_0_1_n_n.rhsIdx i q 1).val = (i 1).val := by
  unfold DotDims.rhsIdx
  rw [dif_neg (show ¬(1 : Fin S256x256.rank) ∈ dot_S32x256_S256x256_S32x256_1_0_0_1_n_n.rhsBatch by decide), dif_pos (show (1 : Fin S256x256.rank) ∈ dot_S32x256_S256x256_S32x256_1_0_0_1_n_n.rhsNonContracting by decide)]
  rfl

/-- The product of 32 rows by a `[256, 256]` matrix onto the zero accumulator, at `(p, c)`: the sum over the
    contracted coordinate `k` of the left operand at `(p, k)` times the right at `(k, c)`. -/
theorem matmul_cols_apply (L : FVec Ideal S32x256 .bf16) (R : FVec Ideal S256x256 .bf16) (p : Fin 32) (c : Fin 256) :
    matmul (F := Ideal) dot_S32x256_S256x256_S32x256_1_0_0_1_n_n none L R (constant (F := Ideal) S32x256 .f32 0x00000000#32) (ix2 p c)
      = ∑ k : Fin 256, L (ix2 p k) * R (ix2 k c) := by
  simp only [matmul]
  rw [Ideal.matmul_constant_zero_apply, ← Equiv.sum_comp (contrEquiv1 dot_S32x256_S256x256_S32x256_1_0_0_1_n_n 256 rfl rfl).symm]
  refine Finset.sum_congr rfl fun k _ => ?_
  have hk := contrEquiv1_symm_val dot_S32x256_S256x256_S32x256_1_0_0_1_n_n 256 rfl rfl k
  have el : dot_S32x256_S256x256_S32x256_1_0_0_1_n_n.lhsIdx (ix2 p c) ((contrEquiv1 dot_S32x256_S256x256_S32x256_1_0_0_1_n_n 256 rfl rfl).symm k) = ix2 p k := funext fun a => Fin.ext (by
    match a with
    | ⟨0, _⟩ => exact lhs_cols_0 _ _
    | ⟨1, _⟩ => exact (lhs_cols_1 _ _).trans hk)
  have er : dot_S32x256_S256x256_S32x256_1_0_0_1_n_n.rhsIdx (ix2 p c) ((contrEquiv1 dot_S32x256_S256x256_S32x256_1_0_0_1_n_n 256 rfl rfl).symm k) = ix2 k c := funext fun a => Fin.ext (by
    match a with
    | ⟨0, _⟩ => exact (rhs_cols_0 _ _).trans hk
    | ⟨1, _⟩ => exact rhs_cols_1 _ _)
  rw [el, er]

/-! ## The payloads at an index -/

/-- The batch's block as a matrix: node `n`, feature `f`. -/
theorem pay2_apply (x0 : Vec Ideal S1x128x256 .f32) (n : Fin 128) (f : Fin 256) :
    k0_pay2 (F := Ideal) x0 (ix2 n f) = x0 (ix3 0 n f) := by
  unfold k0_pay2
  exact shapeCast_1ab_ab_apply x0 _ n f

/-- The first node's term: the rectified row `p` of the batch through its block of `W1`. -/
theorem pay3_apply (x0 : Vec Ideal S1x128x256 .f32) (x4 : Vec Ideal S256x256 .bf16) (p : Fin 128) (h : Fin 256) :
    k0_pay3 (F := Ideal) x0 x4 (ix2 p h) = ∑ f : Fin 256, max (x0 (ix3 0 p f) : EReal) 0 * (x4 (ix2 f h) : EReal) := by
  unfold k0_pay3
  refine (matmul_nodes_apply _ _ p h).trans ?_
  refine Finset.sum_congr rfl fun f _ => ?_
  rw [shapeCast_self, truncf_apply, maximumf_apply, broadcast_apply, scalar_zero, pay2_apply]

/-- The second node's term: the rectified row `q` of the 32-row block through its block of `W1`. -/
theorem pay4_apply (x1 : Vec Ideal S1x32x256 .f32) (x5 : Vec Ideal S256x256 .bf16) (q : Fin 32) (h : Fin 256) :
    k0_pay4 (F := Ideal) x1 x5 (ix2 q h) = ∑ f : Fin 256, max (x1 (ix3 0 q f) : EReal) 0 * (x5 (ix2 f h) : EReal) := by
  unfold k0_pay4
  refine (matmul_cols_apply _ _ q h).trans ?_
  refine Finset.sum_congr rfl fun f _ => ?_
  rw [shapeCast_self, truncf_apply, maximumf_apply, broadcast_apply, scalar_zero, shapeCast_1ab_ab_apply]

/-- The bias row, unchanged. -/
theorem pay5_eq (x7 : Vec Ideal S1x256 .f32) : k0_pay5 (F := Ideal) x7 = x7 := by
  unfold k0_pay5
  exact shapeCast_self x7 _

/-- The pooled branch: the batch mean through `Wp`, rectified, through the first block of `W1`, at hidden unit `h`. -/
theorem pay6_apply (x0 : Vec Ideal S1x128x256 .f32) (x2 x3 : Vec Ideal S256x256 .bf16) (h : Fin 256) :
    k0_pay6 (F := Ideal) x0 x2 x3 (ix3 0 0 h)
      = Readout.pooledTerm (fun n f => x0 (ix3 0 n f)) (fun f g => x2 (ix2 f g)) (fun g h => x3 (ix2 g h)) h := by
  unfold k0_pay6 Readout.pooledTerm
  refine (shapeCast_ab_1ab_apply _ _ 0 0 h).trans ?_
  refine (matmul_row_apply _ _ 0 h).trans ?_
  refine Finset.sum_congr rfl fun g _ => ?_
  simp only [shapeCast_self, truncf_apply, maximumf_apply, broadcast_apply, scalar_zero]
  refine congrArg (fun y : EReal => max y 0 * (x3 (ix2 g h) : EReal)) ?_
  refine (matmul_row_apply _ _ 0 g).trans ?_
  refine Finset.sum_congr rfl fun f _ => ?_
  simp only [truncf_apply, mulf_apply, broadcast_apply, scalar_inv128, shapeCast_a_1a_apply]
  refine congrArg (fun y : EReal => y * Readout.inv128 * (x2 (ix2 f g) : EReal)) ?_
  refine (nodeSum_apply _ f).trans ?_
  simp only [pay2_apply]

/-- The stored value at `(0, i, j, 0)`, from the four terms, the output weights and the output bias. -/
theorem pay1_apply (v23 : FVec Ideal S128x256 .f32) (v29 : FVec Ideal S32x256 .f32) (v31 : FVec Ideal S1x256 .f32)
    (v32 : FVec Ideal S1x1x256 .f32) (x6 : Vec Ideal S1x256 .f32) (x8 : Vec Ideal S1x1 .f32) (i : Fin 128) (jj : Fin 32) :
    k0_pay1 (F := Ideal) v23 v29 v31 v32 x6 x8 (ix4 0 i jj 0)
      = (∑ h : Fin 256, max (((v32 (ix3 0 0 h) + v23 (ix2 i h)) + v29 (ix2 jj h)) + v31 (ix2 0 h)) 0 * (x6 (ix2 0 h) : EReal))
          + (x8 (ix2 0 0) : EReal) := by
  unfold k0_pay1
  refine (shapeCast_abc_1abc_apply _ _ 0 i jj 0).trans ?_
  simp only [shapeCast_self, addf_apply, shapeCast_ab_ab1_apply, broadcastTo_one_pairs_apply, shapeCast_ab_1ab_apply]
  refine congrArg (· + (x8 (ix2 0 0) : EReal)) ?_
  refine (laneSum_apply _ i jj).trans ?_
  simp only [addf_apply, mulf_apply, maximumf_apply, broadcast_apply, scalar_zero, broadcastTo_row_pairs_apply,
    broadcastTo_rows_pairs_apply, broadcastTo_cols_pairs_apply, broadcastTo_row_rows_apply, shapeCast_ab_1ab_apply,
    shapeCast_ab_a1b_apply]

/-! ## The stored value -/

theorem stored_apply (x0 : Vec Ideal S1x128x256 .f32) (x1 : Vec Ideal S1x32x256 .f32) (x2 x3 x4 x5 : Vec Ideal S256x256 .bf16)
    (x6 x7 : Vec Ideal S1x256 .f32) (x8 : Vec Ideal S1x1 .f32) (i : Fin 128) (jj : Fin 32) :
    Cert.KernelIdeal.Region.stored (F := Ideal) x0 x1 x2 x3 x4 x5 x6 x7 x8 (ix4 0 i jj 0)
      = Cert.Readout.core (fun n f => x0 (ix3 0 n f)) (fun f => x0 (ix3 0 i f)) (fun f => x1 (ix3 0 jj f))
          (fun f g => x2 (ix2 f g)) (fun g h => x3 (ix2 g h)) (fun f h => x4 (ix2 f h)) (fun f h => x5 (ix2 f h))
          (fun h => x7 (ix2 0 h)) (fun h => x6 (ix2 0 h)) (x8 (ix2 0 0)) := by
  unfold Cert.KernelIdeal.Region.stored Cert.Readout.core
  rw [pay1_apply]
  refine congrArg (· + (x8 (ix2 0 0) : EReal)) (Finset.sum_congr rfl fun h _ => ?_)
  rw [pay6_apply, pay3_apply, pay4_apply, pay5_eq]

end Cert.KernelIdeal.Stored

end
-- ==== Proof.KernelIdeal.Blocks.lean ====
/-
  From blocks to the array: what grid point (b, jt) writes back — the stored value of its nine input blocks, cut to
  the block — is block (b, ·, jt, ·) of ONE function of the arrays the region finds, and the 32 blocks cover the
  result array.
-/
import proofs.«153392_j67302137528982_1_alg».proof.Proof.KernelIdeal.Body
import proofs.«153392_j67302137528982_1_alg».proof.Proof.KernelIdeal.Stored
import proofs.«153392_j67302137528982_1_alg».proof.Proof.Readout
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Region Cert.Readout Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The readout of the arrays as the region finds them (the weights as the host operations left them), at every index
    of the result array. -/
def Gentry (c : Dev nD) : S8x128x128x1.Idx → EReal := fun idx =>
  core (fun n f => (V m c main_arg0 : S8x128x256.Idx → EReal) (ix3 (idx 0) n f))
    (fun f => (V m c main_arg0 : S8x128x256.Idx → EReal) (ix3 (idx 0) (idx 1) f))
    (fun f => (V m c main_arg0 : S8x128x256.Idx → EReal) (ix3 (idx 0) (idx 2) f))
    (fun f g => (V m c main_v3 : S256x256.Idx → EReal) (ix2 f g)) (fun g h => (V m c main_v4 : S256x256.Idx → EReal) (ix2 g h))
    (fun f h => (V m c main_v5 : S256x256.Idx → EReal) (ix2 f h)) (fun f h => (V m c main_v6 : S256x256.Idx → EReal) (ix2 f h))
    (fun h => (V m c main_v7 : S1x256.Idx → EReal) (ix2 0 h)) (fun h => (V m c main_v8 : S1x256.Idx → EReal) (ix2 0 h))
    ((V m c main_v9 : S1x1.Idx → EReal) (ix2 0 0))

/-! ## The zero offsets, and the index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 32 grid points: the whole-batch window and the 32-row window move with the
    output's block (batch with batch, row block with pair-column block), every other input window stays at block 0, and
    the output's block index is (b, 0, jt, 0) with b below 8 and jt below 4. -/
theorem idx_facts : ∀ t : Fin cfg0.N,
    win0_0.index t (0 : Fin 3) = win0_9.index t (0 : Fin 4) ∧ win0_0.index t (1 : Fin 3) = 0 ∧ win0_0.index t (2 : Fin 3) = 0
    ∧ win0_1.index t (0 : Fin 3) = win0_9.index t (0 : Fin 4) ∧ win0_1.index t (1 : Fin 3) = win0_9.index t (2 : Fin 4) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 4) ≤ 7 ∧ win0_9.index t (1 : Fin 4) = 0 ∧ win0_9.index t (2 : Fin 4) ≤ 3 ∧ win0_9.index t (3 : Fin 4) = 0 :=
  (by decide +kernel : ∀ t : Fin grid0.N, _)

/-- Every block of the result array is some point's. -/
theorem idx_onto : ∀ (q0 : Fin 8) (q2 : Fin 4), ∃ t : Fin cfg0.N, win0_9.index t = ![q0.val, 0, q2.val, 0] :=
  (by decide +kernel : ∀ (q0 : Fin 8) (q2 : Fin 4), ∃ t : Fin grid0.N, win0_9.index t = ![q0.val, 0, q2.val, 0])

/-! ## The input windows' blocks at an index

A block's element sits in its array, on each axis, at the block index times the block's size plus its own coordinate. -/

/-- Window 0's block at a point is the point's batch, whole: its (0, n, f) is the array's (b, n, f). -/
theorem iblk0_apply (c : Dev nD) (t : Fin cfg0.N) (n : Fin 128) (f : Fin 256) (b : Fin 8) (hb : b.val = win0_9.index t (0 : Fin 4)) :
    (iblk m c 0 t : S1x128x256.Idx → EReal) (ix3 0 n f) = (V m c main_arg0 : S8x128x256.Idx → EReal) (ix3 b n f) := by
  obtain ⟨e0, e1, e2, -⟩ := idx_facts t
  show (V m c main_arg0 : S8x128x256.Idx → EReal) (((cfg0.win 0).blk t).view.emb (ix3 0 n f)) = _
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * n.val = n.val; omega
  | ⟨2, _⟩ => show win0_0.index t (2 : Fin 3) * 256 + 1 * f.val = f.val; omega

/-- Window 1's block at a point is rows 32·jt … 32·jt + 31 of the point's batch: its (0, j, f) is the array's (b, 32·jt + j, f). -/
theorem iblk1_apply (c : Dev nD) (t : Fin cfg0.N) (j : Fin 32) (f : Fin 256) (b : Fin 8) (hb : b.val = win0_9.index t (0 : Fin 4))
    (r : Fin 128) (hr : r.val = win0_9.index t (2 : Fin 4) * 32 + j.val) :
    (iblk m c 1 t : S1x32x256.Idx → EReal) (ix3 0 j f) = (V m c main_arg0 : S8x128x256.Idx → EReal) (ix3 b r f) := by
  obtain ⟨-, -, -, e0, e1, e2, -⟩ := idx_facts t
  show (V m c main_arg0 : S8x128x256.Idx → EReal) (((cfg0.win 1).blk t).view.emb (ix3 0 j f)) = _
  refine congrArg _ (funext fun a => Fin.ext ?_)
  match a with
  | ⟨0, _⟩ => show win0_1.index t (0 : Fin 3) * 1 + 1 * 0 = b.val; omega
  | ⟨1, _⟩ => show win0_1.index t (1 : Fin 3) * 32 + 1 * j.val = r.val; omega
  | ⟨2, _⟩ => show win0_1.index t (2 : Fin 3) * 256 + 1 * f.val = f.val; omega

/-- Window 2's block is its whole array (the pooling weights). -/
theorem iblk2_apply (c : Dev nD) (t : Fin cfg0.N) (p : Fin 256) (q : Fin 256) :
    (iblk m c 2 t : S256x256.Idx → EReal) (ix2 p q) = (V m c main_v3 : S256x256.Idx → EReal) (ix2 p q) := by
  obtain ⟨-, -, -, -, -, -, a2, b2, a3, b3, a4, b4, a5, b5, a6, b6, a7, b7, a8, b8, -⟩ := idx_facts t
  show (V m c main_v3 : S256x256.Idx → EReal) (((cfg0.win 2).blk t).view.emb (ix2 p q)) = _
  refine congrArg _ (funext fun a => Fin.ext ?_)
  match a with
  | ⟨0, _⟩ => show win0_2.index t (0 : Fin 2) * 256 + 1 * p.val = p.val; omega
  | ⟨1, _⟩ => show win0_2.index t (1 : Fin 2) * 256 + 1 * q.val = q.val; omega

/-- Window 3's block is its whole array (the first row block of `W1`). -/
theorem iblk3_apply (c : Dev nD) (t : Fin cfg0.N) (p : Fin 256) (q : Fin 256) :
    (iblk m c 3 t : S256x256.Idx → EReal) (ix2 p q) = (V m c main_v4 : S256x256.Idx → EReal) (ix2 p q) := by
  obtain ⟨-, -, -, -, -, -, a2, b2, a3, b3, a4, b4, a5, b5, a6, b6, a7, b7, a8, b8, -⟩ := idx_facts t
  show (V m c main_v4 : S256x256.Idx → EReal) (((cfg0.win 3).blk t).view.emb (ix2 p q)) = _
  refine congrArg _ (funext fun a => Fin.ext ?_)
  match a with
  | ⟨0, _⟩ => show win0_3.index t (0 : Fin 2) * 256 + 1 * p.val = p.val; omega
  | ⟨1, _⟩ => show win0_3.index t (1 : Fin 2) * 256 + 1 * q.val = q.val; omega

/-- Window 4's block is its whole array (the second row block of `W1`). -/
theorem iblk4_apply (c : Dev nD) (t : Fin cfg0.N) (p : Fin 256) (q : Fin 256) :
    (iblk m c 4 t : S256x256.Idx → EReal) (ix2 p q) = (V m c main_v5 : S256x256.Idx → EReal) (ix2 p q) := by
  obtain ⟨-, -, -, -, -, -, a2, b2, a3, b3, a4, b4, a5, b5, a6, b6, a7, b7, a8, b8, -⟩ := idx_facts t
  show (V m c main_v5 : S256x256.Idx → EReal) (((cfg0.win 4).blk t).view.emb (ix2 p q)) = _
  refine congrArg _ (funext fun a => Fin.ext ?_)
  match a with
  | ⟨0, _⟩ => show win0_4.index t (0 : Fin 2) * 256 + 1 * p.val = p.val; omega
  | ⟨1, _⟩ => show win0_4.index t (1 : Fin 2) * 256 + 1 * q.val = q.val; omega

/-- Window 5's block is its whole array (the third row block of `W1`). -/
theorem iblk5_apply (c : Dev nD) (t : Fin cfg0.N) (p : Fin 256) (q : Fin 256) :
    (iblk m c 5 t : S256x256.Idx → EReal) (ix2 p q) = (V m c main_v6 : S256x256.Idx → EReal) (ix2 p q) := by
  obtain ⟨-, -, -, -, -, -, a2, b2, a3, b3, a4, b4, a5, b5, a6, b6, a7, b7, a8, b8, -⟩ := idx_facts t
  show (V m c main_v6 : S256x256.Idx → EReal) (((cfg0.win 5).blk t).view.emb (ix2 p q)) = _
  refine congrArg _ (funext fun a => Fin.ext ?_)
  match a with
  | ⟨0, _⟩ => show win0_5.index t (0 : Fin 2) * 256 + 1 * p.val = p.val; omega
  | ⟨1, _⟩ => show win0_5.index t (1 : Fin 2) * 256 + 1 * q.val = q.val; omega

/-- Window 6's block is its whole array (the output weights as a row). -/
theorem iblk6_apply (c : Dev nD) (t : Fin cfg0.N) (p : Fin 1) (q : Fin 256) :
    (iblk m c 6 t : S1x256.Idx → EReal) (ix2 p q) = (V m c main_v8 : S1x256.Idx → EReal) (ix2 p q) := by
  obtain ⟨-, -, -, -, -, -, a2, b2, a3, b3, a4, b4, a5, b5, a6, b6, a7, b7, a8, b8, -⟩ := idx_facts t
  show (V m c main_v8 : S1x256.Idx → EReal) (((cfg0.win 6).blk t).view.emb (ix2 p q)) = _
  refine congrArg _ (funext fun a => Fin.ext ?_)
  match a with
  | ⟨0, _⟩ => show win0_6.index t (0 : Fin 2) * 1 + 1 * p.val = p.val; omega
  | ⟨1, _⟩ => show win0_6.index t (1 : Fin 2) * 256 + 1 * q.val = q.val; omega

/-- Window 7's block is its whole array (the hidden bias as a row). -/
theorem iblk7_apply (c : Dev nD) (t : Fin cfg0.N) (p : Fin 1) (q : Fin 256) :
    (iblk m c 7 t : S1x256.Idx → EReal) (ix2 p q) = (V m c main_v7 : S1x256.Idx → EReal) (ix2 p q) := by
  obtain ⟨-, -, -, -, -, -, a2, b2, a3, b3, a4, b4, a5, b5, a6, b6, a7, b7, a8, b8, -⟩ := idx_facts t
  show (V m c main_v7 : S1x256.Idx → EReal) (((cfg0.win 7).blk t).view.emb (ix2 p q)) = _
  refine congrArg _ (funext fun a => Fin.ext ?_)
  match a with
  | ⟨0, _⟩ => show win0_7.index t (0 : Fin 2) * 1 + 1 * p.val = p.val; omega
  | ⟨1, _⟩ => show win0_7.index t (1 : Fin 2) * 256 + 1 * q.val = q.val; omega

/-- Window 8's block is its whole array (the output bias). -/
theorem iblk8_apply (c : Dev nD) (t : Fin cfg0.N) (p : Fin 1) (q : Fin 1) :
    (iblk m c 8 t : S1x1.Idx → EReal) (ix2 p q) = (V m c main_v9 : S1x1.Idx → EReal) (ix2 p q) := by
  obtain ⟨-, -, -, -, -, -, a2, b2, a3, b3, a4, b4, a5, b5, a6, b6, a7, b7, a8, b8, -⟩ := idx_facts t
  show (V m c main_v9 : S1x1.Idx → EReal) (((cfg0.win 8).blk t).view.emb (ix2 p q)) = _
  refine congrArg _ (funext fun a => Fin.ext ?_)
  match a with
  | ⟨0, _⟩ => show win0_8.index t (0 : Fin 2) * 1 + 1 * p.val = p.val; omega
  | ⟨1, _⟩ => show win0_8.index t (1 : Fin 2) * 1 + 1 * q.val = q.val; omega

/-- The readout of rows that agree is the same. -/
theorem core_congr {xb xb' : Fin 128 → Fin 256 → EReal} {xi xi' xj xj' : Fin 256 → EReal}
    {Wp Wp' W1p W1p' W1i W1i' W1j W1j' : Fin 256 → Fin 256 → EReal} {b1 b1' w2 w2' : Fin 256 → EReal} {b2 b2' : EReal}
    (hxb : ∀ n f, xb n f = xb' n f) (hxi : ∀ f, xi f = xi' f) (hxj : ∀ f, xj f = xj' f)
    (hWp : ∀ f g, Wp f g = Wp' f g) (hW1p : ∀ g h, W1p g h = W1p' g h) (hW1i : ∀ f h, W1i f h = W1i' f h)
    (hW1j : ∀ f h, W1j f h = W1j' f h) (hb1 : ∀ h, b1 h = b1' h) (hw2 : ∀ h, w2 h = w2' h) (hb2 : b2 = b2') :
    core xb xi xj Wp W1p W1i W1j b1 w2 b2 = core xb' xi' xj' Wp' W1p' W1i' W1j' b1' w2' b2' := by
  obtain rfl : xb = xb' := funext fun n => funext (hxb n)
  obtain rfl : xi = xi' := funext hxi
  obtain rfl : xj = xj' := funext hxj
  obtain rfl : Wp = Wp' := funext fun f => funext (hWp f)
  obtain rfl : W1p = W1p' := funext fun g => funext (hW1p g)
  obtain rfl : W1i = W1i' := funext fun f => funext (hW1i f)
  obtain rfl : W1j = W1j' := funext fun f => funext (hW1j f)
  obtain rfl : b1 = b1' := funext hb1
  obtain rfl : w2 = w2' := funext hw2
  obtain rfl : b2 = b2' := hb2
  rfl

/-! ## What a point writes back -/

/-- WHAT POINT `t` WRITES BACK is block `t` of `Gentry`. -/
theorem flushed_core (c : Dev nD) (t : Fin cfg0.N) :
    (cfg0.win 9).cut (grid0.coords t)
        (outBuf (F := Ideal) (iblk m c 0 t) (iblk m c 1 t) (iblk m c 2 t) (iblk m c 3 t) (iblk m c 4 t) (iblk m c 5 t) (iblk m c 6 t) (iblk m c 7 t) (iblk m c 8 t))
      = ((cfg0.win 9).blk t).view.read (Elt Ideal) (Gentry m c) := by
  unfold outBuf
  rw [View.canon_unit_zero hz4]
  simp only [View.ld_unit_zero (S := S1x128x256) hz3, View.ld_unit_zero (S := S1x32x256) hz3, View.ld_unit_zero (S := S256x256) hz2,
    View.ld_unit_zero (S := S1x256) hz2, View.ld_unit_zero (S := S1x1) hz2]
  funext j
  obtain ⟨o, i, jj, o', rfl⟩ : ∃ (o : Fin 1) (i : Fin 128) (jj : Fin 32) (o' : Fin 1), j = ix4 o i jj o' :=
    ⟨j 0, j 1, j 2, j 3, eq_ix4 j⟩
  obtain rfl : o = 0 := Subsingleton.elim _ _
  obtain rfl : o' = 0 := Subsingleton.elim _ _
  obtain ⟨-, -, -, -, -, -, -, -, -, -, -, -, -, -, -, -, -, -, -, -, l0, z1, l2, z3⟩ := idx_facts t
  -- the array index under the block's (0, i, jj, 0): (b, i, 32·jt + jj, 0)
  have hidx : ((cfg0.win 9).blk t).view.emb (ix4 0 i jj 0)
      = (ix4 (⟨win0_9.index t (0 : Fin 4), by omega⟩ : Fin 8) i (⟨win0_9.index t (2 : Fin 4) * 32 + jj.val, by omega⟩ : Fin 128) (0 : Fin 1) : S8x128x128x1.Idx) := by
    funext a; apply Fin.ext
    match a with
    | ⟨0, _⟩ => show win0_9.index t (0 : Fin 4) * 1 + 1 * 0 = win0_9.index t (0 : Fin 4); omega
    | ⟨1, _⟩ => show win0_9.index t (1 : Fin 4) * 128 + 1 * i.val = i.val; omega
    | ⟨2, _⟩ => show win0_9.index t (2 : Fin 4) * 32 + 1 * jj.val = win0_9.index t (2 : Fin 4) * 32 + jj.val; omega
    | ⟨3, _⟩ => show win0_9.index t (3 : Fin 4) * 1 + 1 * 0 = 0; omega
  show stored (F := Ideal) (iblk m c 0 t) (iblk m c 1 t) (iblk m c 2 t) (iblk m c 3 t) (iblk m c 4 t) (iblk m c 5 t) (iblk m c 6 t)
        (iblk m c 7 t) (iblk m c 8 t) (ix4 0 i jj 0)
      = Gentry m c (((cfg0.win 9).blk t).view.emb (ix4 0 i jj 0))
  rw [hidx]
  refine (Stored.stored_apply _ _ _ _ _ _ _ _ _ i jj).trans ?_
  unfold Gentry
  exact core_congr (fun n f => iblk0_apply m c t n f _ rfl) (fun f => iblk0_apply m c t i f _ rfl)
    (fun f => iblk1_apply m c t jj f _ rfl _ rfl) (fun f g => iblk2_apply m c t f g) (fun g h => iblk3_apply m c t g h)
    (fun f h => iblk4_apply m c t f h) (fun f h => iblk5_apply m c t f h) (fun h => iblk7_apply m c t 0 h)
    (fun h => iblk6_apply m c t 0 h) (iblk8_apply m c t 0 0)

/-! ## The blocks cover the array -/

/-- An index of the array is in point `t`'s block iff each coordinate is in the block's range on its axis. -/
theorem mem_blk (t : Fin cfg0.N) (i : S8x128x128x1.Idx) :
    i ∈ ((cfg0.win 9).blk t).view.set ↔ ∀ a : Fin 4, win0_9.index t a * S1x128x32x1.size a ≤ (i a).val
      ∧ (i a).val < win0_9.index t a * S1x128x32x1.size a + S1x128x32x1.size a := by
  show i ∈ ((View.whole main_v10).slice (win0_9.rect t)).set ↔ _
  rw [View.set_slice_whole, Rect.mem_set_unit]
  exact Iff.rfl

/-- Every index of the result array is in the block of some point (and every point writes its block back). -/
theorem covered (c : Dev nD) (i : ((cfg0.win 9).arr.view.loc (c.tc : Thread nD τ)).2.ty.Idx) :
    ∃ t : Fin cfg0.N, (cfg0.win 9).flush t = true ∧ i ∈ ((cfg0.win 9).blk t).view.set := by
  revert i
  show ∀ i : S8x128x128x1.Idx, ∃ t : Fin cfg0.N, (cfg0.win 9).flush t = true ∧ i ∈ ((cfg0.win 9).blk t).view.set
  intro i
  have hi0 : (i 0).val < 8 := (i 0).isLt
  have hi1 : (i 1).val < 128 := (i 1).isLt
  have hi2 : (i 2).val < 128 := (i 2).isLt
  have hi3 : (i 3).val < 1 := (i 3).isLt
  -- the point with coordinates (b, j / 32)
  obtain ⟨t, ht⟩ := idx_onto ⟨(i 0).val, hi0⟩ ⟨(i 2).val / 32, by omega⟩
  have q0 : win0_9.index t (0 : Fin 4) = (i 0).val := congrFun ht 0
  have q1 : win0_9.index t (1 : Fin 4) = 0 := congrFun ht 1
  have q2 : win0_9.index t (2 : Fin 4) = (i 2).val / 32 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 128 ≤ (i 1).val ∧ (i 1).val < win0_9.index t (1 : Fin 4) * 128 + 128; omega
  | ⟨2, _⟩ => show win0_9.index t (2 : Fin 4) * 32 ≤ (i 2).val ∧ (i 2).val < win0_9.index t (2 : Fin 4) * 32 + 32; omega
  | ⟨3, _⟩ => show win0_9.index t (3 : Fin 4) * 1 ≤ (i 3).val ∧ (i 3).val < win0_9.index t (3 : Fin 4) * 1 + 1; omega

end Cert.KernelIdeal.Blocks

end
-- ==== Proof.KernelIdeal.EntryValues.lean ====
/-
  What the region finds in the arrays the host operations made, read at an index from the argument arrays:
  the weight matrices' changes of format are the identity on the extended reals, the three row slices of W1 start at
  rows 0, 256 and 512, and the three reshapes move a vector into a one-row matrix.
-/
import proofs.«153392_j67302137528982_1_alg».proof.Proof.KernelIdeal.Entry
import proofs.«153392_j67302137528982_1_alg».proof.Proof.Readout
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.EntryValues

open Cert.KernelIdeal Cert.KernelIdeal.Gen Cert.KernelIdeal.Region Cert.Readout Idealize.ShloMosaic Idealize.ShloMosaic.TcCoe Idealize.ShloMosaic.ValueIdx Idealize.SL.Sem

variable (m : (ℓ : Loc nD τ sig) → Buf (Elt Ideal) ℓ)

theorem V_v3_apply (c : Dev nD) (f g : Fin 256) :
    (V m c main_v3 : S256x256.Idx → EReal) (ix2 f g) = (m ((c : Thread nD τ).loc main_arg2) : S256x256.Idx → EReal) (ix2 f g) := by
  dsimp only [V, hostOps0]; after_results
  rfl
theorem V_v4_apply (c : Dev nD) (g h : Fin 256) :
    (V m c main_v4 : S256x256.Idx → EReal) (ix2 g h) = (m ((c : Thread nD τ).loc main_arg3) : S768x256.Idx → EReal) (ix2 (rowP g) h) := by
  dsimp only [V, hostOps0]; after_results
  exact slice2_axis0_apply (α := EReal) (n0 := 768) (n1 := 256) (m := 256) 0
    (m ((c : Thread nD τ).loc main_arg3) : S768x256.Idx → EReal) slices_S768x256_S256x256_0_0 g h (rowP g) (Nat.zero_add _).symm
theorem V_v5_apply (c : Dev nD) (f h : Fin 256) :
    (V m c main_v5 : S256x256.Idx → EReal) (ix2 f h) = (m ((c : Thread nD τ).loc main_arg3) : S768x256.Idx → EReal) (ix2 (rowI f) h) := by
  dsimp only [V, hostOps0]; after_results
  exact slice2_axis0_apply (α := EReal) (n0 := 768) (n1 := 256) (m := 256) 256
    (m ((c : Thread nD τ).loc main_arg3) : S768x256.Idx → EReal) slices_S768x256_S256x256_256_0 f h (rowI f) rfl
theorem V_v6_apply (c : Dev nD) (f h : Fin 256) :
    (V m c main_v6 : S256x256.Idx → EReal) (ix2 f h) = (m ((c : Thread nD τ).loc main_arg3) : S768x256.Idx → EReal) (ix2 (rowJ f) h) := by
  dsimp only [V, hostOps0]; after_results
  exact slice2_axis0_apply (α := EReal) (n0 := 768) (n1 := 256) (m := 256) 512
    (m ((c : Thread nD τ).loc main_arg3) : S768x256.Idx → EReal) slices_S768x256_S256x256_512_0 f h (rowJ f) rfl
theorem V_v7_apply (c : Dev nD) (h : Fin 256) :
    (V m c main_v7 : S1x256.Idx → EReal) (ix2 0 h) = (m ((c : Thread nD τ).loc main_arg4) : S256.Idx → EReal) (ix1 h) := by
  dsimp only [V, hostOps0]; after_results
  exact shapeCast_a_1a_apply (α := EReal) (a := 256) _ _ 0 h
theorem V_v8_apply (c : Dev nD) (h : Fin 256) :
    (V m c main_v8 : S1x256.Idx → EReal) (ix2 0 h) = (m ((c : Thread nD τ).loc main_arg5) : S256x1.Idx → EReal) (ix2 h 0) := by
  dsimp only [V, hostOps0]; after_results
  exact shapeCast_apply (α := EReal) (s := S256x1) (t := S1x256) _ shapeCasts_S256x1_S1x256 (ix2 0 h) (ix2 h 0) (by
    rw [Shape.rowMajor_val_two, Shape.rowMajor_val_two]
    show h.val * 1 + 0 = 0 * 256 + h.val
    omega)
theorem V_v9_apply (c : Dev nD) :
    (V m c main_v9 : S1x1.Idx → EReal) (ix2 0 0) = (m ((c : Thread nD τ).loc main_arg6) : S1.Idx → EReal) (ix1 0) := by
  dsimp only [V, hostOps0]; after_results
  exact shapeCast_a_1a_apply (α := EReal) (a := 1) _ _ 0 0

end Cert.KernelIdeal.EntryValues

end
-- ==== Proof.KernelIdeal.Final.lean ====
/-
  The result array of the idealized kernel program after the run: the readout `Readout.G` of the argument arrays.
  The 32 points' write-backs cover the array, each with its block of the readout of the arrays as the region finds
  them; and the region finds the weights as the host operations left them — the argument arrays' own entries, by row
  block and by row.
-/
import proofs.«153392_j67302137528982_1_alg».proof.Proof.KernelIdeal.Frame
import proofs.«153392_j67302137528982_1_alg».proof.Proof.KernelIdeal.Blocks
import proofs.«153392_j67302137528982_1_alg».proof.Proof.KernelIdeal.EntryValues
import proofs.«153392_j67302137528982_1_alg».proof.Proof.Readout
import Idealize.ShloMosaic.Lib.Pipeline.Value

set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region Cert.KernelIdeal.Blocks Cert.KernelIdeal.EntryValues

variable (m : (ℓ : Loc nD τ sig) → Buf (Elt Ideal) ℓ) (ρ : Dev nD → PrngReg)

/-- What point `t` writes back is block `t` of the readout of the arrays as the region finds them. -/
theorem flushed_eq (c : Dev nD) (t : Fin cfg0.N) :
    (dats m 0 c).flushed 9 t = ((cfg0.win 9).blk t).view.read (Elt Ideal) (Gentry m c) := by
  show (cfg0.win 9).cut (grid0.coords t) ((dats m 0 c).after 9 t) = _
  rw [after9]
  exact flushed_core m c t

/-- The blocks cover the array, so it ends holding that readout. -/
theorem arr_entry (c : Dev nD) : (dats m 0 c).arrAt 9 cfg0.N = Gentry m c :=
  (dats m 0 c).arrAt_eq_of_cover 9 (Gentry m c) (fun t _ => flushed_eq m c t) (covered c)

/-- The readout of the arrays as the region finds them is the readout of the argument arrays. -/
theorem Gentry_eq (c : Dev nD) :
    Gentry m c = Cert.Readout.G (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  funext idx
  obtain ⟨b, i, j, o, rfl⟩ : ∃ (b : Fin 8) (i j : Fin 128) (o : Fin 1), idx = ix4 b i j o :=
    ⟨idx 0, idx 1, idx 2, idx 3, eq_ix4 idx⟩
  show Cert.Readout.core (fun n f => (V m c main_arg0 : S8x128x256.Idx → EReal) (ix3 b n f))
      (fun f => (V m c main_arg0 : S8x128x256.Idx → EReal) (ix3 b i f))
      (fun f => (V m c main_arg0 : S8x128x256.Idx → EReal) (ix3 b j f))
      (fun f g => (V m c main_v3 : S256x256.Idx → EReal) (ix2 f g)) (fun g h => (V m c main_v4 : S256x256.Idx → EReal) (ix2 g h))
      (fun f h => (V m c main_v5 : S256x256.Idx → EReal) (ix2 f h)) (fun f h => (V m c main_v6 : S256x256.Idx → EReal) (ix2 f h))
      (fun h => (V m c main_v7 : S1x256.Idx → EReal) (ix2 0 h)) (fun h => (V m c main_v8 : S1x256.Idx → EReal) (ix2 0 h))
      ((V m c main_v9 : S1x1.Idx → EReal) (ix2 0 0))
    = Cert.Readout.Gat (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) b i j
  unfold Cert.Readout.Gat
  have e3 : (fun f g : Fin 256 => (V m c main_v3 : S256x256.Idx → EReal) (ix2 f g))
      = fun f g => (m ((c.tc : Thread nD τ).loc main_arg2) : S256x256.Idx → EReal) (ix2 f g) :=
    funext fun f => funext fun g => V_v3_apply m c f g
  have e4 : (fun g h : Fin 256 => (V m c main_v4 : S256x256.Idx → EReal) (ix2 g h))
      = fun g h => (m ((c.tc : Thread nD τ).loc main_arg3) : S768x256.Idx → EReal) (ix2 (Cert.Readout.rowP g) h) :=
    funext fun g => funext fun h => V_v4_apply m c g h
  have e5 : (fun f h : Fin 256 => (V m c main_v5 : S256x256.Idx → EReal) (ix2 f h))
      = fun f h => (m ((c.tc : Thread nD τ).loc main_arg3) : S768x256.Idx → EReal) (ix2 (Cert.Readout.rowI f) h) :=
    funext fun f => funext fun h => V_v5_apply m c f h
  have e6 : (fun f h : Fin 256 => (V m c main_v6 : S256x256.Idx → EReal) (ix2 f h))
      = fun f h => (m ((c.tc : Thread nD τ).loc main_arg3) : S768x256.Idx → EReal) (ix2 (Cert.Readout.rowJ f) h) :=
    funext fun f => funext fun h => V_v6_apply m c f h
  have e7 : (fun h : Fin 256 => (V m c main_v7 : S1x256.Idx → EReal) (ix2 0 h))
      = fun h => (m ((c.tc : Thread nD τ).loc main_arg4) : S256.Idx → EReal) (ix1 h) :=
    funext fun h => V_v7_apply m c h
  have e8 : (fun h : Fin 256 => (V m c main_v8 : S1x256.Idx → EReal) (ix2 0 h))
      = fun h => (m ((c.tc : Thread nD τ).loc main_arg5) : S256x1.Idx → EReal) (ix2 h 0) :=
    funext fun h => V_v8_apply m c h
  rw [e3, e4, e5, e6, e7, e8, V_v9_apply m c, V_main_arg0 m c]

/-- The run of the idealized kernel program: the result array ends at the readout of the argument arrays, the arguments unchanged. -/
theorem value_run : θ_run defs (onTc (τ := τ) (main (F := Ideal))) ⟨m, fun _ => 0, ρ⟩ fun r => ∀ c : Dev nD,
      r.2.mem ((c.tc : Thread nD τ).loc main_v10) = Cert.Readout.G (m ((c.tc : Thread nD τ).loc main_arg0)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans ((arr_entry m c).trans (Gentry_eq m c)), (h c).2⟩) (run_named m ρ)

end Cert.KernelIdeal.Final

end
-- ==== Proof.RefValue.lean ====
/-
  The reference's result, index by index, is the readout `Readout.G` of the argument arrays.
-/
import proofs.«153392_j67302137528982_1_alg».proof.Proof.Gen.ReferenceIdeal.Run
import proofs.«153392_j67302137528982_1_alg».proof.Proof.Gen.ReferenceIdeal.Read
import proofs.«153392_j67302137528982_1_alg».proof.Proof.Readout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

open Cert.Readout

/-! ## The two facts about numbers -/

/-- The word `0x43000000` denotes the real `128`. -/
theorem ofBits_128 : Ideal.ofBits .f32 0x43000000#32 = ((128 : ℝ) : EReal) := by
  simp [Ideal.ofBits, Ideal.ieee, -EReal.coe_mul]; norm_num

/-- Dividing by `128` is multiplying by its reciprocal, at the infinities too. -/
theorem div_128 (y : EReal) : Ideal.div y (Ideal.ofBits .f32 0x43000000#32) = y * inv128 := by
  rw [ofBits_128, Ideal.div_coe (by norm_num : (128 : ℝ) ≠ 0)]; rfl

/-- A sum over the 768 rows is the sum over the three blocks of 256 rows. -/
theorem sum_768 {M : Type*} [AddCommMonoid M] (F : Fin 768 → M) :
    ∑ k : Fin 768, F k = (∑ g : Fin 256, F (rowP g) + ∑ f : Fin 256, F (rowI f)) + ∑ f : Fin 256, F (rowJ f) := by
  have h1 : ∑ k : Fin (512 + 256), F k
      = ∑ k : Fin 512, F (Fin.castAdd 256 k) + ∑ f : Fin 256, F (Fin.natAdd 512 f) :=
    Fin.sum_univ_add (fun k : Fin (512 + 256) => F k)
  have h2 : ∑ k : Fin (256 + 256), F (Fin.castAdd 256 k)
      = ∑ g : Fin 256, F (Fin.castAdd 256 (Fin.castAdd 256 g)) + ∑ f : Fin 256, F (Fin.castAdd 256 (Fin.natAdd 256 f)) :=
    Fin.sum_univ_add (fun k : Fin (256 + 256) => F (Fin.castAdd 256 k))
  exact h1.trans (congrArg (· + ∑ f : Fin 256, F (Fin.natAdd 512 f)) h2)

/-! ## The stages, each read at an index given by its coordinates -/

section Stages

variable (x0 : (⟨S8x128x256, .f32⟩ : BufTy).Contents (Elt Ideal)) (x2 : (⟨S256x256, .f32⟩ : BufTy).Contents (Elt Ideal))
  (x3 : (⟨S768x256, .f32⟩ : BufTy).Contents (Elt Ideal)) (x4 : (⟨S256, .f32⟩ : BufTy).Contents (Elt Ideal))
  (x5 : (⟨S256x1, .f32⟩ : BufTy).Contents (Elt Ideal)) (x6 : (⟨S1, .f32⟩ : BufTy).Contents (Elt Ideal))

/-- The sum over the nodes of a batch, feature by feature (the initial value is zero). -/
theorem v4_at (b : Fin 8) (f : Fin 256) :
    val_main_v4 (F := Ideal) x0 (ix2 b f) = ∑ n : Fin 128, x0 (ix3 b n f) := by
  rw [val_main_v4_apply, val_main_cst_apply, Ideal.ofBits_def, Ideal.ofBits_zero_f32, zero_add]
  refine Finset.sum_congr rfl fun n _ => congrArg x0 ?_
  exact funext fun a => Fin.ext (by match a with | ⟨0, _⟩ => rfl | ⟨1, _⟩ => rfl | ⟨2, _⟩ => rfl)

/-- The mean over the nodes: the sum divided by `128`, that is, times `1/128`. -/
theorem v6_at (b : Fin 8) (f : Fin 256) :
    val_main_v6 (F := Ideal) x0 (ix2 b f) = (∑ n : Fin 128, x0 (ix3 b n f)) * inv128 := by
  rw [val_main_v6_apply, val_main_v5_apply, val_main_cst_0_apply, Ideal.hostDivf_def, Ideal.ofBits_def, v4_at, div_128]

/-- The pooled vector: the mean through `Wp`. -/
theorem v7_at (b : Fin 8) (g : Fin 256) :
    val_main_v7 (F := Ideal) x0 x2 (ix2 b g)
      = ∑ f : Fin 256, ((∑ n : Fin 128, x0 (ix3 b n f)) * inv128) * x2 (ix2 f g) := by
  rw [val_main_v7_apply]
  refine Finset.sum_congr rfl fun f _ => ?_
  have el : lidx_main_v7 (ix2 b g) f = ix2 b f :=
    funext fun a => Fin.ext (by match a with | ⟨0, _⟩ => rfl | ⟨1, _⟩ => rfl)
  have er : ridx_main_v7 (ix2 b g) f = ix2 f g :=
    funext fun a => Fin.ext (by match a with | ⟨0, _⟩ => rfl | ⟨1, _⟩ => rfl)
  rw [el, er, v6_at]

/-- The pooled vector broadcast over the pairs. -/
theorem v9_at (b : Fin 8) (i j : Fin 128) (g : Fin 256) :
    val_main_v9 (F := Ideal) x0 x2 (ix4 b i j g) = val_main_v7 (F := Ideal) x0 x2 (ix2 b g) := by
  rw [val_main_v9_apply, val_main_v8_apply]
  refine congrArg (val_main_v7 (F := Ideal) x0 x2) ?_
  exact funext fun a => Fin.ext (by match a with | ⟨0, _⟩ => rfl | ⟨1, _⟩ => rfl)

/-- The first node's row broadcast over the second node. -/
theorem v1_at (b : Fin 8) (i j : Fin 128) (f : Fin 256) :
    val_main_v1 (F := Ideal) x0 (ix4 b i j f) = x0 (ix3 b i f) := by
  rw [val_main_v1_apply, val_main_v0_apply]
  refine congrArg x0 ?_
  exact funext fun a => Fin.ext (by match a with | ⟨0, _⟩ => rfl | ⟨1, _⟩ => rfl | ⟨2, _⟩ => rfl)

/-- The second node's row broadcast over the first node. -/
theorem v3_at (b : Fin 8) (i j : Fin 128) (f : Fin 256) :
    val_main_v3 (F := Ideal) x0 (ix4 b i j f) = x0 (ix3 b j f) := by
  rw [val_main_v3_apply, val_main_v2_apply]
  refine congrArg x0 ?_
  exact funext fun a => Fin.ext (by match a with | ⟨0, _⟩ => rfl | ⟨1, _⟩ => rfl | ⟨2, _⟩ => rfl)

/-- The concatenation along the last axis, in its first block of 256: the pooled vector. -/
theorem v10_P (b : Fin 8) (i j : Fin 128) (g : Fin 256) :
    val_main_v10 (F := Ideal) x0 x2 (ix4 b i j (rowP g)) = val_main_v9 (F := Ideal) x0 x2 (ix4 b i j g) := by
  unfold val_main_v10
  refine concatenate_apply_piece (3 : Fin S8x128x128x768.rank) _ _ (ix4 b i j (rowP g)) 0 (by show (0 : Nat) < 3; omega)
    S8x128x128x256 (val_main_v9 (F := Ideal) x0 x2) rfl rfl 0 rfl (ix4 b i j g) (fun c hc => ?_) (Nat.zero_add _)
  match c, hc with
  | ⟨0, _⟩, _ => rfl
  | ⟨1, _⟩, _ => rfl
  | ⟨2, _⟩, _ => rfl
  | ⟨3, _⟩, hc => exact absurd rfl hc

/-- The concatenation in its second block of 256: the first node's row. -/
theorem v10_I (b : Fin 8) (i j : Fin 128) (f : Fin 256) :
    val_main_v10 (F := Ideal) x0 x2 (ix4 b i j (rowI f)) = val_main_v1 (F := Ideal) x0 (ix4 b i j f) := by
  unfold val_main_v10
  refine concatenate_apply_piece (3 : Fin S8x128x128x768.rank) _ _ (ix4 b i j (rowI f)) 1 (by show (1 : Nat) < 3; omega)
    S8x128x128x256 (val_main_v1 (F := Ideal) x0) rfl rfl 256 rfl (ix4 b i j f) (fun c hc => ?_) rfl
  match c, hc with
  | ⟨0, _⟩, _ => rfl
  | ⟨1, _⟩, _ => rfl
  | ⟨2, _⟩, _ => rfl
  | ⟨3, _⟩, hc => exact absurd rfl hc

/-- The concatenation in its third block of 256: the second node's row. -/
theorem v10_J (b : Fin 8) (i j : Fin 128) (f : Fin 256) :
    val_main_v10 (F := Ideal) x0 x2 (ix4 b i j (rowJ f)) = val_main_v3 (F := Ideal) x0 (ix4 b i j f) := by
  unfold val_main_v10
  refine concatenate_apply_piece (3 : Fin S8x128x128x768.rank) _ _ (ix4 b i j (rowJ f)) 2 (by show (2 : Nat) < 3; omega)
    S8x128x128x256 (val_main_v3 (F := Ideal) x0) rfl rfl 512 rfl (ix4 b i j f) (fun c hc => ?_) rfl
  match c, hc with
  | ⟨0, _⟩, _ => rfl
  | ⟨1, _⟩, _ => rfl
  | ⟨2, _⟩, _ => rfl
  | ⟨3, _⟩, hc => exact absurd rfl hc

/-- The rectified concatenation. -/
theorem v11_at (idx : S8x128x128x768.Idx) :
    val_main_v11 (F := Ideal) x0 x2 idx = max (val_main_v10 (F := Ideal) x0 x2 idx) 0 := by
  rw [val_main_v11_apply, val_main_call0_v0_apply, val_main_call0_cst_apply, Ideal.maximumf_def, Ideal.ofBits_def,
    Ideal.ofBits_zero_f32]

/-- The hidden layer before its bias: the contraction over the 768 rows of `W1`, block by block. -/
theorem v12_at (b : Fin 8) (i j : Fin 128) (h : Fin 256) :
    val_main_v12 (F := Ideal) x0 x2 x3 (ix4 b i j h)
      = (∑ g : Fin 256, max (val_main_v7 (F := Ideal) x0 x2 (ix2 b g)) 0 * x3 (ix2 (rowP g) h)
          + ∑ f : Fin 256, max (x0 (ix3 b i f)) 0 * x3 (ix2 (rowI f) h))
          + ∑ f : Fin 256, max (x0 (ix3 b j f)) 0 * x3 (ix2 (rowJ f) h) := by
  have el : ∀ k : Fin 768, lidx_main_v12 (ix4 b i j h) k = ix4 b i j k := fun k =>
    funext fun a => Fin.ext (by match a with | ⟨0, _⟩ => rfl | ⟨1, _⟩ => rfl | ⟨2, _⟩ => rfl | ⟨3, _⟩ => rfl)
  have er : ∀ k : Fin 768, ridx_main_v12 (ix4 b i j h) k = ix2 k h := fun k =>
    funext fun a => Fin.ext (by match a with | ⟨0, _⟩ => rfl | ⟨1, _⟩ => rfl)
  rw [val_main_v12_apply, sum_768]
  simp only [el, er, v11_at, v10_P, v10_I, v10_J, v9_at, v1_at, v3_at]

/-- The bias of the hidden layer broadcast over batches and pairs. -/
theorem v14_at (b : Fin 8) (i j : Fin 128) (h : Fin 256) :
    val_main_v14 (F := Ideal) x4 (ix4 b i j h) = x4 (ix1 h) := by
  rw [val_main_v14_apply, val_main_v13_apply]
  refine congrArg x4 ?_
  exact funext fun a => Fin.ext (by match a with | ⟨0, _⟩ => rfl)

/-- The hidden layer, rectified. -/
theorem v16_at (b : Fin 8) (i j : Fin 128) (h : Fin 256) :
    val_main_v16 (F := Ideal) x0 x2 x3 x4 (ix4 b i j h)
      = max (val_main_v12 (F := Ideal) x0 x2 x3 (ix4 b i j h) + x4 (ix1 h)) 0 := by
  rw [val_main_v16_apply, val_main_v15_apply, val_main_call1_v0_apply, val_main_call1_cst_apply, Ideal.maximumf_def,
    Ideal.addf_def, Ideal.ofBits_def, Ideal.ofBits_zero_f32, v14_at]

/-- The output layer before its bias. -/
theorem v17_at (b : Fin 8) (i j : Fin 128) (o : Fin 1) :
    val_main_v17 (F := Ideal) x0 x2 x3 x4 x5 (ix4 b i j o)
      = ∑ h : Fin 256, max (val_main_v12 (F := Ideal) x0 x2 x3 (ix4 b i j h) + x4 (ix1 h)) 0 * x5 (ix2 h 0) := by
  have ho : o = 0 := Fin.ext (by omega)
  subst ho
  rw [val_main_v17_apply]
  refine Finset.sum_congr rfl fun h _ => ?_
  have el : lidx_main_v17 (ix4 b i j (0 : Fin 1)) h = ix4 b i j h :=
    funext fun a => Fin.ext (by match a with | ⟨0, _⟩ => rfl | ⟨1, _⟩ => rfl | ⟨2, _⟩ => rfl | ⟨3, _⟩ => rfl)
  have er : ridx_main_v17 (ix4 b i j (0 : Fin 1)) h = ix2 h (0 : Fin 1) :=
    funext fun a => Fin.ext (by match a with | ⟨0, _⟩ => rfl | ⟨1, _⟩ => rfl)
  rw [el, er, v16_at]

/-- The bias of the output layer broadcast over batches and pairs. -/
theorem v19_at (b : Fin 8) (i j : Fin 128) (o : Fin 1) :
    val_main_v19 (F := Ideal) x6 (ix4 b i j o) = x6 (ix1 0) := by
  rw [val_main_v19_apply, val_main_v18_apply]
  refine congrArg x6 ?_
  exact funext fun a => Fin.ext (by match a with | ⟨0, _⟩ => rfl)

end Stages

/-! ## The reference is the readout -/

theorem ref_eq (x0 : (⟨S8x128x256, .f32⟩ : BufTy).Contents (Elt Ideal)) (x2 : (⟨S256x256, .f32⟩ : BufTy).Contents (Elt Ideal))
    (x3 : (⟨S768x256, .f32⟩ : BufTy).Contents (Elt Ideal)) (x4 : (⟨S256, .f32⟩ : BufTy).Contents (Elt Ideal))
    (x5 : (⟨S256x1, .f32⟩ : BufTy).Contents (Elt Ideal)) (x6 : (⟨S1, .f32⟩ : BufTy).Contents (Elt Ideal)) :
    Read.val_main_v20 (F := Ideal) x0 x2 x3 x4 x5 x6 = Cert.Readout.G x0 x2 x3 x4 x5 x6 := by
  funext idx
  obtain ⟨b, i, j, o, rfl⟩ : ∃ (b : Fin 8) (i j : Fin 128) (o : Fin 1), idx = ix4 b i j o :=
    ⟨idx 0, idx 1, idx 2, idx 3, eq_ix4 idx⟩
  rw [Cert.Readout.G_ix4, val_main_v20_apply, Ideal.addf_def, v17_at, v19_at]
  unfold Gat core pooledTerm
  simp only [v12_at, v7_at]

end Cert.ReferenceIdeal.RefValue

end
-- ==== Proof.lean ====
/-
  The certificate of the pairwise readout kernel against its reference, over the extended reals.

  The kernel never builds the [B, N, N, 3F] pair features: since the rectifier acts entry by entry before the
  concatenation, relu(concat(p, x_i, x_j)) · W1 is the sum of three products with the three 256-row blocks of W1, the
  first depending on the batch only, the second on i only, the third on j only. The reference forms the concatenation
  and one product over 768 entries. A sum over 768 entries is the sum of the three sums over its thirds in any
  commutative monoid, so the two agree on every extended real; the batch mean is a division by 128 on one side and a
  product with the exact dyadic 1/128 on the other, which agree on every extended real too. No step uses that the inputs
  are finite.

  Three frames: the kernel program read at words and at extended reals runs to the end and leaves its arguments alone
  (one region on an 8 × 4 grid, two of whose input windows stage the same array, after ten host operations); the
  reference is a straight line of host operations. The idealization rewrote nothing, so `preserves` is trivial. The value
  claim: both result arrays are `Readout.G` of the arguments.
-/
import proofs.«153392_j67302137528982_1_alg».proof.Defs
import proofs.«153392_j67302137528982_1_alg».proof.Proof.Gen.Kernel
import proofs.«153392_j67302137528982_1_alg».proof.Proof.Gen.KernelIdeal
import proofs.«153392_j67302137528982_1_alg».proof.Proof.Gen.ReferenceIdeal
import proofs.«153392_j67302137528982_1_alg».proof.Proof.Gen.Pre_finite_inputs
import proofs.«153392_j67302137528982_1_alg».proof.Proof.Gen.ReferenceIdeal.Run
import proofs.«153392_j67302137528982_1_alg».proof.Proof.Gen.ReferenceIdeal.Read
import proofs.«153392_j67302137528982_1_alg».proof.Proof.Kernel.Frame
import proofs.«153392_j67302137528982_1_alg».proof.Proof.KernelIdeal.Frame
import proofs.«153392_j67302137528982_1_alg».proof.Proof.KernelIdeal.Final
import proofs.«153392_j67302137528982_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ

theorem frame_kernelIdeal : Cert.frame_KernelIdeal := fun m ρ _ => Cert.KernelIdeal.Region.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs, run from memories that agree on the arguments, end with the readout of the arguments in their result arrays. -/
theorem algebraic : Cert.algebraic_KernelIdeal_ReferenceIdeal := by
  intro m ρ m' ρ' _ hagree
  refine ⟨fun c => Cert.Readout.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Final.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.ref_eq,
    (hagree c).1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
